-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v12_0)) (v1 : (c : Dev Cert.KernelIdeal.nD) → Buf (Elt Ideal) ((c.tc : Thread Cert.KernelIdeal.nD Cert.KernelIdeal.τ).loc Cert.KernelIdeal.main_v12_1)) (v2 : (c : Dev Cert.KernelIdeal.nD) → Buf (Elt Ideal) ((c.tc : Thread Cert.KernelIdeal.nD Cert.KernelIdeal.τ).loc Cert.KernelIdeal.main_v13)) (v3 : (c : Dev Cert.KernelIdeal.nD) → Buf (Elt Ideal) ((c.tc : Thread Cert.KernelIdeal.nD Cert.KernelIdeal.τ).loc Cert.KernelIdeal.main_v14)) (v4 : (c : Dev Cert.KernelIdeal.nD) → Buf (Elt Ideal) ((c.tc : Thread Cert.KernelIdeal.nD Cert.KernelIdeal.τ).loc Cert.KernelIdeal.main_v12_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12_0) = v0 c
          ∧ r.2.mem ((c.tc : Thread Cert.KernelIdeal.nD Cert.KernelIdeal.τ).loc Cert.KernelIdeal.main_v12_1) = v1 c
          ∧ r.2.mem ((c.tc : Thread Cert.KernelIdeal.nD Cert.KernelIdeal.τ).loc Cert.KernelIdeal.main_v13) = v2 c
          ∧ r.2.mem ((c.tc : Thread Cert.KernelIdeal.nD Cert.KernelIdeal.τ).loc Cert.KernelIdeal.main_v14) = v3 c
          ∧ r.2.mem ((c.tc : Thread Cert.KernelIdeal.nD Cert.KernelIdeal.τ).loc Cert.KernelIdeal.main_v12_2) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_v55) = v1 c
          ∧ r.2.mem ((c.tc : Thread Cert.ReferenceIdeal.nD Cert.ReferenceIdeal.τ).loc Cert.ReferenceIdeal.main_v90) = v2 c
          ∧ r.2.mem ((c.tc : Thread Cert.ReferenceIdeal.nD Cert.ReferenceIdeal.τ).loc Cert.ReferenceIdeal.main_v111) = v3 c
          ∧ r.2.mem ((c.tc : Thread Cert.ReferenceIdeal.nD Cert.ReferenceIdeal.τ).loc Cert.ReferenceIdeal.main_v59) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x1000x1000 : Shape := ⟨3, ![16, 1000, 1000]⟩
abbrev S16x998x999 : Shape := ⟨3, ![16, 998, 999]⟩
abbrev S16x999x998 : Shape := ⟨3, ![16, 999, 998]⟩
abbrev S1000x1000 : Shape := ⟨2, ![1000, 1000]⟩
abbrev S998x999 : Shape := ⟨2, ![998, 999]⟩
abbrev S999x998 : Shape := ⟨2, ![999, 998]⟩
abbrev S_ : Shape := ⟨0, ![]⟩

class Facts : Prop where
  bcast_S_S16x1000x1000 : S_.BroadcastsInDim S16x1000x1000 (![] : Fin 0 → Fin S16x1000x1000.rank)
  reducesTo_S16x1000x1000_S_d0_1_2 : S16x1000x1000.ReducesTo [0, 1, 2] S_
  h_S_ : 0 < S_.numel
  bcast_S_S16x998x999 : S_.BroadcastsInDim S16x998x999 (![] : Fin 0 → Fin S16x998x999.rank)
  reducesTo_S16x998x999_S_d0_1_2 : S16x998x999.ReducesTo [0, 1, 2] S_
  bcast_S_S16x999x998 : S_.BroadcastsInDim S16x999x998 (![] : Fin 0 → Fin S16x999x998.rank)
  reducesTo_S16x999x998_S_d0_1_2 : S16x999x998.ReducesTo [0, 1, 2] S_
  bcast_S_S1000x1000 : S_.BroadcastsInDim S1000x1000 (![] : Fin 0 → Fin S1000x1000.rank)
  reducesTo_S1000x1000_S_d0_1 : S1000x1000.ReducesTo [0, 1] S_
  bcast_S_S998x999 : S_.BroadcastsInDim S998x999 (![] : Fin 0 → Fin S998x999.rank)
  reducesTo_S998x999_S_d0_1 : S998x999.ReducesTo [0, 1] S_
  bcast_S_S999x998 : S_.BroadcastsInDim S999x998 (![] : Fin 0 → Fin S999x998.rank)
  reducesTo_S999x998_S_d0_1 : S999x998.ReducesTo [0, 1] S_

variable [Facts]

def fn_part2 {F : FTy → Type} [FloatOps F] (main_arg7 : FVec F S998x999 .f32) (main_arg8 : FVec F S1000x1000 .f32) (main_arg9 : FVec F S999x998 .f32) (main_v33 : IVec S_ 1) : IVec S_ 1 :=
  let main_v34 : FVec F S998x999 .f32 := Host.absf main_arg7
  let main_cst_12 : FVec F S_ .f32 := constant S_ .f32 0x7F800000#32
  let main_v35 : FVec F S998x999 .f32 := broadcastInDim S998x999 ![] bcast_S_S998x999 main_cst_12
  let main_v36 : IVec S998x999 1 := cmpf .olt main_v34 main_v35
  let main_c_13 : IVec S_ 1 := constantI S_ 1 1#1
  let main_v37 : IVec S_ 1 := (fun x v => Host.reduce IntOp.andi x v reducesTo_S998x999_S_d0_1 h_S_) main_v36 main_c_13
  let main_v38 : IVec S_ 1 := andi main_v33 main_v37
  let main_v39 : FVec F S1000x1000 .f32 := Host.absf main_arg8
  let main_cst_14 : FVec F S_ .f32 := constant S_ .f32 0x7F800000#32
  let main_v40 : FVec F S1000x1000 .f32 := broadcastInDim S1000x1000 ![] bcast_S_S1000x1000 main_cst_14
  let main_v41 : IVec S1000x1000 1 := cmpf .olt main_v39 main_v40
  let main_c_15 : IVec S_ 1 := constantI S_ 1 1#1
  let main_v42 : IVec S_ 1 := (fun x v => Host.reduce IntOp.andi x v reducesTo_S1000x1000_S_d0_1 h_S_) main_v41 main_c_15
  let main_v43 : IVec S_ 1 := andi main_v38 main_v42
  let main_v44 : FVec F S999x998 .f32 := Host.absf main_arg9
  let main_cst_16 : FVec F S_ .f32 := constant S_ .f32 0x7F800000#32
  let main_v45 : FVec F S999x998 .f32 := broadcastInDim S999x998 ![] bcast_S_S999x998 main_cst_16
  let main_v46 : IVec S999x998 1 := cmpf .olt main_v44 main_v45
  let main_c_17 : IVec S_ 1 := constantI S_ 1 1#1
  let main_v47 : IVec S_ 1 := (fun x v => Host.reduce IntOp.andi x v reducesTo_S999x998_S_d0_1 h_S_) main_v46 main_c_17
  let main_v48 : IVec S_ 1 := andi main_v43 main_v47
  main_v48

def fn_part1 {F : FTy → Type} [FloatOps F] (main_arg4 : FVec F S16x1000x1000 .f32) (main_arg5 : FVec F S1000x1000 .f32) (main_arg6 : FVec F S1000x1000 .f32) (main_arg7 : FVec F S998x999 .f32) (main_arg8 : FVec F S1000x1000 .f32) (main_arg9 : FVec F S999x998 .f32) (main_v13 : IVec S_ 1) (main_v16 : IVec S16x999x998 1) : IVec S_ 1 :=
  let main_c_5 : IVec S_ 1 := constantI S_ 1 1#1
  let main_v17 : IVec S_ 1 := (fun x v => Host.reduce IntOp.andi x v reducesTo_S16x999x998_S_d0_1_2 h_S_) main_v16 main_c_5
  let main_v18 : IVec S_ 1 := andi main_v13 main_v17
  let main_v19 : FVec F S16x1000x1000 .f32 := Host.absf main_arg4
  let main_cst_6 : FVec F S_ .f32 := constant S_ .f32 0x7F800000#32
  let main_v20 : FVec F S16x1000x1000 .f32 := broadcastInDim S16x1000x1000 ![] bcast_S_S16x1000x1000 main_cst_6
  let main_v21 : IVec S16x1000x1000 1 := cmpf .olt main_v19 main_v20
  let main_c_7 : IVec S_ 1 := constantI S_ 1 1#1
  let main_v22 : IVec S_ 1 := (fun x v => Host.reduce IntOp.andi x v reducesTo_S16x1000x1000_S_d0_1_2 h_S_) main_v21 main_c_7
  let main_v23 : IVec S_ 1 := andi main_v18 main_v22
  let main_v24 : FVec F S1000x1000 .f32 := Host.absf main_arg5
  let main_cst_8 : FVec F S_ .f32 := constant S_ .f32 0x7F800000#32
  let main_v25 : FVec F S1000x1000 .f32 := broadcastInDim S1000x1000 ![] bcast_S_S1000x1000 main_cst_8
  let main_v26 : IVec S1000x1000 1 := cmpf .olt main_v24 main_v25
  let main_c_9 : IVec S_ 1 := constantI S_ 1 1#1
  let main_v27 : IVec S_ 1 := (fun x v => Host.reduce IntOp.andi x v reducesTo_S1000x1000_S_d0_1 h_S_) main_v26 main_c_9
  let main_v28 : IVec S_ 1 := andi main_v23 main_v27
  let main_v29 : FVec F S1000x1000 .f32 := Host.absf main_arg6
  let main_cst_10 : FVec F S_ .f32 := constant S_ .f32 0x7F800000#32
  let main_v30 : FVec F S1000x1000 .f32 := broadcastInDim S1000x1000 ![] bcast_S_S1000x1000 main_cst_10
  let main_v31 : IVec S1000x1000 1 := cmpf .olt main_v29 main_v30
  let main_c_11 : IVec S_ 1 := constantI S_ 1 1#1
  let main_v32 : IVec S_ 1 := (fun x v => Host.reduce IntOp.andi x v reducesTo_S1000x1000_S_d0_1 h_S_) main_v31 main_c_11
  let main_v33 : IVec S_ 1 := andi main_v28 main_v32
  fn_part2 (F := F) main_arg7 main_arg8 main_arg9 main_v33

def fn {F : FTy → Type} [FloatOps F] (main_arg0 : FVec F S16x1000x1000 .f32) (main_arg1 : FVec F S16x1000x1000 .f32) (main_arg2 : FVec F S16x998x999 .f32) (main_arg3 : FVec F S16x999x998 .f32) (main_arg4 : FVec F S16x1000x1000 .f32) (main_arg5 : FVec F S1000x1000 .f32) (main_arg6 : FVec F S1000x1000 .f32) (main_arg7 : FVec F S998x999 .f32) (main_arg8 : FVec F S1000x1000 .f32) (main_arg9 : FVec F S999x998 .f32) : IVec S_ 1 :=
  let main_v0 : FVec F S16x1000x1000 .f32 := Host.absf main_arg0
  let main_cst : FVec F S_ .f32 := constant S_ .f32 0x7F800000#32
  let main_v1 : FVec F S16x1000x1000 .f32 := broadcastInDim S16x1000x1000 ![] bcast_S_S16x1000x1000 main_cst
  let main_v2 : IVec S16x1000x1000 1 := cmpf .olt main_v0 main_v1
  let main_c : IVec S_ 1 := constantI S_ 1 1#1
  let main_v3 : IVec S_ 1 := (fun x v => Host.reduce IntOp.andi x v reducesTo_S16x1000x1000_S_d0_1_2 h_S_) main_v2 main_c
  let main_v4 : FVec F S16x1000x1000 .f32 := Host.absf main_arg1
  let main_cst_0 : FVec F S_ .f32 := constant S_ .f32 0x7F800000#32
  let main_v5 : FVec F S16x1000x1000 .f32 := broadcastInDim S16x1000x1000 ![] bcast_S_S16x1000x1000 main_cst_0
  let main_v6 : IVec S16x1000x1000 1 := cmpf .olt main_v4 main_v5
  let main_c_1 : IVec S_ 1 := constantI S_ 1 1#1
  let main_v7 : IVec S_ 1 := (fun x v => Host.reduce IntOp.andi x v reducesTo_S16x1000x1000_S_d0_1_2 h_S_) main_v6 main_c_1
  let main_v8 : IVec S_ 1 := andi main_v3 main_v7
  let main_v9 : FVec F S16x998x999 .f32 := Host.absf main_arg2
  let main_cst_2 : FVec F S_ .f32 := constant S_ .f32 0x7F800000#32
  let main_v10 : FVec F S16x998x999 .f32 := broadcastInDim S16x998x999 ![] bcast_S_S16x998x999 main_cst_2
  let main_v11 : IVec S16x998x999 1 := cmpf .olt main_v9 main_v10
  let main_c_3 : IVec S_ 1 := constantI S_ 1 1#1
  let main_v12 : IVec S_ 1 := (fun x v => Host.reduce IntOp.andi x v reducesTo_S16x998x999_S_d0_1_2 h_S_) main_v11 main_c_3
  let main_v13 : IVec S_ 1 := andi main_v8 main_v12
  let main_v14 : FVec F S16x999x998 .f32 := Host.absf main_arg3
  let main_cst_4 : FVec F S_ .f32 := constant S_ .f32 0x7F800000#32
  let main_v15 : FVec F S16x999x998 .f32 := broadcastInDim S16x999x998 ![] bcast_S_S16x999x998 main_cst_4
  let main_v16 : IVec S16x999x998 1 := cmpf .olt main_v14 main_v15
  fn_part1 (F := F) main_arg4 main_arg5 main_arg6 main_arg7 main_arg8 main_arg9 main_v13 main_v16
-- ==== Kernel.lean ====
abbrev S16x1000x1000 : Shape := ⟨3, ![16, 1000, 1000]⟩
abbrev S16x998x999 : Shape := ⟨3, ![16, 998, 999]⟩
abbrev S16x999x998 : Shape := ⟨3, ![16, 999, 998]⟩
abbrev S1000x1000 : Shape := ⟨2, ![1000, 1000]⟩
abbrev S998x999 : Shape := ⟨2, ![998, 999]⟩
abbrev S999x998 : Shape := ⟨2, ![999, 998]⟩
abbrev S16x998x998 : Shape := ⟨3, ![16, 998, 998]⟩
abbrev S_ : Shape := ⟨0, ![]⟩
abbrev S1x200x1000 : Shape := ⟨3, ![1, 200, 1000]⟩
abbrev S200x1000 : Shape := ⟨2, ![200, 1000]⟩
abbrev S1x998x999 : Shape := ⟨3, ![1, 998, 999]⟩
abbrev S1x1000x1000 : Shape := ⟨3, ![1, 1000, 1000]⟩
abbrev S1x999x998 : Shape := ⟨3, ![1, 999, 998]⟩

abbrev nBuf : Space → Nat
  | .hbm => 33
  | .vmem => 36
  | .smem => 0
  | _ => 0

abbrev bufTy : (tb : Table) → Fin (tcTables nBuf tb) → BufTy
  | .hbm, ⟨0, _⟩ => ⟨S16x1000x1000, .f32⟩
  | .hbm, ⟨1, _⟩ => ⟨S16x1000x1000, .f32⟩
  | .hbm, ⟨2, _⟩ => ⟨S16x998x999, .f32⟩
  | .hbm, ⟨3, _⟩ => ⟨S16x999x998, .f32⟩
  | .hbm, ⟨4, _⟩ => ⟨S16x1000x1000, .f32⟩
  | .hbm, ⟨5, _⟩ => ⟨S1000x1000, .f32⟩
  | .hbm, ⟨6, _⟩ => ⟨S1000x1000, .f32⟩
  | .hbm, ⟨7, _⟩ => ⟨S998x999, .f32⟩
  | .hbm, ⟨8, _⟩ => ⟨S1000x1000, .f32⟩
  | .hbm, ⟨9, _⟩ => ⟨S999x998, .f32⟩
  | .hbm, ⟨10, _⟩ => ⟨S16x998x998, .f32⟩
  | .hbm, ⟨11, _⟩ => ⟨S16x998x998, .f32⟩
  | .hbm, ⟨12, _⟩ => ⟨S16x998x998, .f32⟩
  | .hbm, ⟨13, _⟩ => ⟨S_, .f32⟩
  | .hbm, ⟨14, _⟩ => ⟨S16x998x998, .f32⟩
  | .hbm, ⟨15, _⟩ => ⟨S16x998x998, .f32⟩
  | .hbm, ⟨16, _⟩ => ⟨S_, .i32⟩
  | .hbm, ⟨17, _⟩ => ⟨S_, .f32⟩
  | .hbm, ⟨18, _⟩ => ⟨S16x1000x1000, .f32⟩
  | .hbm, ⟨19, _⟩ => ⟨S16x998x998, .f32⟩
  | .hbm, ⟨20, _⟩ => ⟨S16x998x998, .f32⟩
  | .hbm, ⟨21, _⟩ => ⟨S16x998x998, .f32⟩
  | .hbm, ⟨22, _⟩ => ⟨S_, .f32⟩
  | .hbm, ⟨23, _⟩ => ⟨S16x998x998, .f32⟩
  | .hbm, ⟨24, _⟩ => ⟨S16x998x998, .f32⟩
  | .hbm, ⟨25, _⟩ => ⟨S_, .i32⟩
  | .hbm, ⟨26, _⟩ => ⟨S_, .f32⟩
  | .hbm, ⟨27, _⟩ => ⟨S16x1000x1000, .f32⟩
  | .hbm, ⟨28, _⟩ => ⟨S16x1000x1000, .f32⟩
  | .hbm, ⟨29, _⟩ => ⟨S16x1000x1000, .f32⟩
  | .hbm, ⟨30, _⟩ => ⟨S16x1000x1000, .f32⟩
  | .hbm, ⟨31, _⟩ => ⟨S16x998x999, .f32⟩
  | .hbm, ⟨32, _⟩ => ⟨S16x999x998, .f32⟩
  | .local _ .vmem, ⟨0, _⟩ => ⟨S1x200x1000, .f32⟩
  | .local _ .vmem, ⟨1, _⟩ => ⟨S1x200x1000, .f32⟩
  | .local _ .vmem, ⟨2, _⟩ => ⟨S1x200x1000, .f32⟩
  | .local _ .vmem, ⟨3, _⟩ => ⟨S1x200x1000, .f32⟩
  | .local _ .vmem, ⟨4, _⟩ => ⟨S1x200x1000, .f32⟩
  | .local _ .vmem, ⟨5, _⟩ => ⟨S1x200x1000, .f32⟩
  | .local _ .vmem, ⟨6, _⟩ => ⟨S1x200x1000, .f32⟩
  | .local _ .vmem, ⟨7, _⟩ => ⟨S1x200x1000, .f32⟩
  | .local _ .vmem, ⟨8, _⟩ => ⟨S1x200x1000, .f32⟩
  | .local _ .vmem, ⟨9, _⟩ => ⟨S1x200x1000, .f32⟩
  | .local _ .vmem, ⟨10, _⟩ => ⟨S200x1000, .f32⟩
  | .local _ .vmem, ⟨11, _⟩ => ⟨S200x1000, .f32⟩
  | .local _ .vmem, ⟨12, _⟩ => ⟨S200x1000, .f32⟩
  | .local _ .vmem, ⟨13, _⟩ => ⟨S200x1000, .f32⟩
  | .local _ .vmem, ⟨14, _⟩ => ⟨S200x1000, .f32⟩
  | .local _ .vmem, ⟨15, _⟩ => ⟨S200x1000, .f32⟩
  | .local _ .vmem, ⟨16, _⟩ => ⟨S1x200x1000, .f32⟩
  | .local _ .vmem, ⟨17, _⟩ => ⟨S1x200x1000, .f32⟩
  | .local _ .vmem, ⟨18, _⟩ => ⟨S1x200x1000, .f32⟩
  | .local _ .vmem, ⟨19, _⟩ => ⟨S1x200x1000, .f32⟩
  | .local _ .vmem, ⟨20, _⟩ => ⟨S1x200x1000, .f32⟩
  | .local _ .vmem, ⟨21, _⟩ => ⟨S1x200x1000, .f32⟩
  | .local _ .vmem, ⟨22, _⟩ => ⟨S1x998x999, .f32⟩
  | .local _ .vmem, ⟨23, _⟩ => ⟨S1x998x999, .f32⟩
  | .local _ .vmem, ⟨24, _⟩ => ⟨S1x1000x1000, .f32⟩
  | .local _ .vmem, ⟨25, _⟩ => ⟨S1x1000x1000, .f32⟩
  | .local _ .vmem, ⟨26, _⟩ => ⟨S998x999, .f32⟩
  | .local _ .vmem, ⟨27, _⟩ => ⟨S1x998x999, .f32⟩
  | .local _ .vmem, ⟨28, _⟩ => ⟨S1x998x999, .f32⟩
  | .local _ .vmem, ⟨29, _⟩ => ⟨S1x999x998, .f32⟩
  | .local _ .vmem, ⟨30, _⟩ => ⟨S1x999x998, .f32⟩
  | .local _ .vmem, ⟨31, _⟩ => ⟨S1x1000x1000, .f32⟩
  | .local _ .vmem, ⟨32, _⟩ => ⟨S1x1000x1000, .f32⟩
  | .local _ .vmem, ⟨33, _⟩ => ⟨S999x998, .f32⟩
  | .local _ .vmem, ⟨34, _⟩ => ⟨S1x999x998, .f32⟩
  | .local _ .vmem, ⟨35, _⟩ => ⟨S1x999x998, .f32⟩
  | _, _ => ⟨S16x1000x1000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_cst : Ref sig .tc := ⟨.hbm, 13, rfl⟩
abbrev main_v3 : Ref sig .tc := ⟨.hbm, 14, rfl⟩
abbrev main_v4 : Ref sig .tc := ⟨.hbm, 15, rfl⟩
abbrev main_c : Ref sig .tc := ⟨.hbm, 16, rfl⟩
abbrev main_call0_v0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_cst_0 : Ref sig .tc := ⟨.hbm, 22, rfl⟩
abbrev main_v9 : Ref sig .tc := ⟨.hbm, 23, rfl⟩
abbrev main_v10 : Ref sig .tc := ⟨.hbm, 24, rfl⟩
abbrev main_c_1 : Ref sig .tc := ⟨.hbm, 25, rfl⟩
abbrev main_call1_v0 : Ref sig .tc := ⟨.hbm, 26, rfl⟩
abbrev main_v11 : Ref sig .tc := ⟨.hbm, 27, rfl⟩
abbrev main_v12_0 : Ref sig .tc := ⟨.hbm, 28, rfl⟩
abbrev main_v12_1 : Ref sig .tc := ⟨.hbm, 29, rfl⟩
abbrev main_v12_2 : Ref sig .tc := ⟨.hbm, 30, rfl⟩
abbrev main_v13 : Ref sig .tc := ⟨.hbm, 31, rfl⟩
abbrev main_v14 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc1_stg0_0 : Ref sig .tc := ⟨.vmem, 22, rfl⟩
abbrev cc1_stg0_1 : Ref sig .tc := ⟨.vmem, 23, rfl⟩
abbrev cc1_stg1_0 : Ref sig .tc := ⟨.vmem, 24, rfl⟩
abbrev cc1_stg1_1 : Ref sig .tc := ⟨.vmem, 25, rfl⟩
abbrev cc1_stg2_0 : Ref sig .tc := ⟨.vmem, 26, rfl⟩
abbrev cc1_stg3_0 : Ref sig .tc := ⟨.vmem, 27, rfl⟩
abbrev cc1_stg3_1 : Ref sig .tc := ⟨.vmem, 28, rfl⟩
abbrev cc2_stg0_0 : Ref sig .tc := ⟨.vmem, 29, rfl⟩
abbrev cc2_stg0_1 : Ref sig .tc := ⟨.vmem, 30, rfl⟩
abbrev cc2_stg1_0 : Ref sig .tc := ⟨.vmem, 31, rfl⟩
abbrev cc2_stg1_1 : Ref sig .tc := ⟨.vmem, 32, rfl⟩
abbrev cc2_stg2_0 : Ref sig .tc := ⟨.vmem, 33, rfl⟩
abbrev cc2_stg3_0 : Ref sig .tc := ⟨.vmem, 34, rfl⟩
abbrev cc2_stg3_1 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc1_sem0_0 : DmaSem sig := 22
abbrev cc1_sem0_1 : DmaSem sig := 23
abbrev cc1_sem1_0 : DmaSem sig := 24
abbrev cc1_sem1_1 : DmaSem sig := 25
abbrev cc1_sem2_0 : DmaSem sig := 26
abbrev cc1_sem3_0 : DmaSem sig := 27
abbrev cc1_sem3_1 : DmaSem sig := 28
abbrev cc2_sem0_0 : DmaSem sig := 29
abbrev cc2_sem0_1 : DmaSem sig := 30
abbrev cc2_sem1_0 : DmaSem sig := 31
abbrev cc2_sem1_1 : DmaSem sig := 32
abbrev cc2_sem2_0 : DmaSem sig := 33
abbrev cc2_sem3_0 : DmaSem sig := 34
abbrev cc2_sem3_1 : DmaSem sig := 35

abbrev nD : Nat := 1
abbrev τ : Topo := Topo.v7x

variable {F : FTy → Type} [FloatOps F]

abbrev grid0 : Pipeline.Grid := ⟨2, ![5, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S1x200x1000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x200x1000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x200x1000 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x200x1000 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x200x1000 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S200x1000 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S200x1000 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S200x1000 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x200x1000 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x200x1000 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x200x1000 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev grid1 : Pipeline.Grid := ⟨1, ![16], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x998x999 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x1000x1000 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S998x999 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S1x998x999 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![16], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S1x999x998 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1x1000x1000 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S999x998 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S1x999x998 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  slices_S16x998x999_S16x998x998_0_0_1 : S16x998x999.Slices ![0, 0, 1] S16x998x998
  slices_S16x998x999_S16x998x998_0_0_0 : S16x998x999.Slices ![0, 0, 0] S16x998x998
  bcast_S_S16x998x998 : S_.BroadcastsInDim S16x998x998 (![] : Fin 0 → Fin S16x998x998.rank)
  pads_S16x998x998_S16x1000x1000_000_110_110 : S16x998x998.Pads (![0, 1, 1] : Fin 3 → Nat) ![0, 1, 1] ![0, 0, 0] S16x1000x1000
  h_S_ : 0 < S_.numel
  slices_S16x999x998_S16x998x998_0_1_0 : S16x999x998.Slices ![0, 1, 0] S16x998x998
  slices_S16x999x998_S16x998x998_0_0_0 : S16x999x998.Slices ![0, 0, 0] S16x998x998
  inb_S200x1000_S200x1000_0_0 : ∀ a, (![0, 0] : Fin 2 → Nat) a + S200x1000.size a ≤ S200x1000.size a
  h_S200x1000 : 0 < S200x1000.numel
  inb_S1x200x1000_S1x200x1000_0_0_0 : ∀ a, (![0, 0, 0] : Fin 3 → Nat) a + S1x200x1000.size a ≤ S1x200x1000.size a
  h_S1x200x1000 : 0 < S1x200x1000.numel
  shapeCasts_S1x200x1000_S1x200x1000 : S1x200x1000.ShapeCasts S1x200x1000
  shapeCasts_S200x1000_S1x200x1000 : S200x1000.ShapeCasts S1x200x1000
  inb_S1x998x999_S1x998x999_0_0_0 : ∀ a, (![0, 0, 0] : Fin 3 → Nat) a + S1x998x999.size a ≤ S1x998x999.size a
  h_S1x998x999 : 0 < S1x998x999.numel
  inb_S1x1000x1000_S1x1000x1000_0_0_0 : ∀ a, (![0, 0, 0] : Fin 3 → Nat) a + S1x1000x1000.size a ≤ S1x1000x1000.size a
  h_S1x1000x1000 : 0 < S1x1000x1000.numel
  shapeCasts_S1x1000x1000_S1x1000x1000 : S1x1000x1000.ShapeCasts S1x1000x1000
  inb_S998x999_S998x999_0_0 : ∀ a, (![0, 0] : Fin 2 → Nat) a + S998x999.size a ≤ S998x999.size a
  h_S998x999 : 0 < S998x999.numel
  slices_S1x1000x1000_o0_1_1_S1x998x999 : S1x1000x1000.Slices ![0, 1, 1] S1x998x999
  slices_S1x1000x1000_o0_1_0_S1x998x999 : S1x1000x1000.Slices ![0, 1, 0] S1x998x999
  shapeCasts_S998x999_S1x998x999 : S998x999.ShapeCasts S1x998x999
  inb_S1x999x998_S1x999x998_0_0_0 : ∀ a, (![0, 0, 0] : Fin 3 → Nat) a + S1x999x998.size a ≤ S1x999x998.size a
  h_S1x999x998 : 0 < S1x999x998.numel
  inb_S999x998_S999x998_0_0 : ∀ a, (![0, 0] : Fin 2 → Nat) a + S999x998.size a ≤ S999x998.size a
  h_S999x998 : 0 < S999x998.numel
  slices_S1x1000x1000_o0_1_1_S1x999x998 : S1x1000x1000.Slices ![0, 1, 1] S1x999x998
  slices_S1x1000x1000_o0_0_1_S1x999x998 : S1x1000x1000.Slices ![0, 0, 1] S1x999x998
  shapeCasts_S999x998_S1x999x998 : S999x998.ShapeCasts S1x999x998
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x200x1000.size a ≤ S16x1000x1000.size a
  hwx0_0 : ∀ i : grid0.Coords, EltTy.bits .f32 = 32 ∨ (Rect.block (s := S16x1000x1000) S1x200x1000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x200x1000.size a ≤ S16x1000x1000.size a
  hwx0_1 : ∀ i : grid0.Coords, EltTy.bits .f32 = 32 ∨ (Rect.block (s := S16x1000x1000) S1x200x1000.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x200x1000.size a ≤ S16x1000x1000.size a
  hwx0_2 : ∀ i : grid0.Coords, EltTy.bits .f32 = 32 ∨ (Rect.block (s := S16x1000x1000) S1x200x1000.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x200x1000.size a ≤ S16x1000x1000.size a
  hwx0_3 : ∀ i : grid0.Coords, EltTy.bits .f32 = 32 ∨ (Rect.block (s := S16x1000x1000) S1x200x1000.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x200x1000.size a ≤ S16x1000x1000.size a
  hwx0_4 : ∀ i : grid0.Coords, EltTy.bits .f32 = 32 ∨ (Rect.block (s := S16x1000x1000) S1x200x1000.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S200x1000.size a ≤ S1000x1000.size a
  hwx0_5 : ∀ i : grid0.Coords, EltTy.bits .f32 = 32 ∨ (Rect.block (s := S1000x1000) S200x1000.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S200x1000.size a ≤ S1000x1000.size a
  hwx0_6 : ∀ i : grid0.Coords, EltTy.bits .f32 = 32 ∨ (Rect.block (s := S1000x1000) S200x1000.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S200x1000.size a ≤ S1000x1000.size a
  hwx0_7 : ∀ i : grid0.Coords, EltTy.bits .f32 = 32 ∨ (Rect.block (s := S1000x1000) S200x1000.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x200x1000.size a ≤ S16x1000x1000.size a
  hwx0_8 : ∀ i : grid0.Coords, EltTy.bits .f32 = 32 ∨ (Rect.block (s := S16x1000x1000) S1x200x1000.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x200x1000.size a ≤ S16x1000x1000.size a
  hwx0_9 : ∀ i : grid0.Coords, EltTy.bits .f32 = 32 ∨ (Rect.block (s := S16x1000x1000) S1x200x1000.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1x200x1000.size a ≤ S16x1000x1000.size a
  hwx0_10 : ∀ i : grid0.Coords, EltTy.bits .f32 = 32 ∨ (Rect.block (s := S16x1000x1000) S1x200x1000.size (cc0_transform_10 i) (hinb0_10 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x998x999.size a ≤ S16x998x999.size a
  hwx1_0 : ∀ i : grid1.Coords, EltTy.bits .f32 = 32 ∨ (Rect.block (s := S16x998x999) S1x998x999.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1000x1000.size a ≤ S16x1000x1000.size a
  hwx1_1 : ∀ i : grid1.Coords, EltTy.bits .f32 = 32 ∨ (Rect.block (s := S16x1000x1000) S1x1000x1000.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S998x999.size a ≤ S998x999.size a
  hwx1_2 : ∀ i : grid1.Coords, EltTy.bits .f32 = 32 ∨ (Rect.block (s := S998x999) S998x999.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x998x999.size a ≤ S16x998x999.size a
  hwx1_3 : ∀ i : grid1.Coords, EltTy.bits .f32 = 32 ∨ (Rect.block (s := S16x998x999) S1x998x999.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x999x998.size a ≤ S16x999x998.size a
  hwx2_0 : ∀ i : grid2.Coords, EltTy.bits .f32 = 32 ∨ (Rect.block (s := S16x999x998) S1x999x998.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1x1000x1000.size a ≤ S16x1000x1000.size a
  hwx2_1 : ∀ i : grid2.Coords, EltTy.bits .f32 = 32 ∨ (Rect.block (s := S16x1000x1000) S1x1000x1000.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S999x998.size a ≤ S999x998.size a
  hwx2_2 : ∀ i : grid2.Coords, EltTy.bits .f32 = 32 ∨ (Rect.block (s := S999x998) S999x998.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1x999x998.size a ≤ S16x999x998.size a
  hwx2_3 : ∀ i : grid2.Coords, EltTy.bits .f32 = 32 ∨ (Rect.block (s := S16x999x998) S1x999x998.size (cc2_transform_3 i) (hinb2_3 i)).WholeWords (EltTy.packing .f32)

variable [Facts₀]

abbrev win0_0 : Pipeline.Window sig grid0 :=
  Pipeline.Window.ofSpec (Memref.whole main_v5) S1x200x1000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v11) S1x200x1000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S1x200x1000.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S1x200x1000.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1x200x1000.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S200x1000.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S200x1000.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_arg8) S200x1000.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v12_0) S1x200x1000.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v12_1) S1x200x1000.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v12_2) S1x200x1000.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

abbrev win1_0 : Pipeline.Window sig grid1 :=
  Pipeline.Window.ofSpec (Memref.whole main_arg2) S1x998x999.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12_2) S1x1000x1000.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg7) S998x999.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v13) S1x998x999.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_arg3) S1x999x998.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v12_2) S1x1000x1000.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg9) S999x998.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v14) S1x999x998.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S16x1000x1000 : Shape := ⟨3, ![16, 1000, 1000]⟩
abbrev S16x998x999 : Shape := ⟨3, ![16, 998, 999]⟩
abbrev S16x999x998 : Shape := ⟨3, ![16, 999, 998]⟩
abbrev S1000x1000 : Shape := ⟨2, ![1000, 1000]⟩
abbrev S998x999 : Shape := ⟨2, ![998, 999]⟩
abbrev S999x998 : Shape := ⟨2, ![999, 998]⟩
abbrev S16x998x998 : Shape := ⟨3, ![16, 998, 998]⟩
abbrev S_ : Shape := ⟨0, ![]⟩
abbrev S1x1000x1000 : Shape := ⟨3, ![1, 1000, 1000]⟩
abbrev S1x998x999 : Shape := ⟨3, ![1, 998, 999]⟩
abbrev S1x999x998 : Shape := ⟨3, ![1, 999, 998]⟩

abbrev nBuf : Space → Nat
  | .hbm => 157
  | .vmem => 0
  | .smem => 0
  | _ => 0

abbrev hbmTy0_0 (i : Nat) : BufTy := match i % 128 with
  | 0 => ⟨S16x1000x1000, .f32⟩
  | 1 => ⟨S16x1000x1000, .f32⟩
  | 2 => ⟨S16x998x999, .f32⟩
  | 3 => ⟨S16x999x998, .f32⟩
  | 4 => ⟨S16x1000x1000, .f32⟩
  | 5 => ⟨S1000x1000, .f32⟩
  | 6 => ⟨S1000x1000, .f32⟩
  | 7 => ⟨S998x999, .f32⟩
  | 8 => ⟨S1000x1000, .f32⟩
  | 9 => ⟨S999x998, .f32⟩
  | 10 => ⟨S16x998x998, .f32⟩
  | 11 => ⟨S16x998x998, .f32⟩
  | 12 => ⟨S16x998x998, .f32⟩
  | 13 => ⟨S_, .f32⟩
  | 14 => ⟨S16x998x998, .f32⟩
  | 15 => ⟨S16x998x998, .f32⟩
  | 16 => ⟨S_, .i32⟩
  | 17 => ⟨S_, .f32⟩
  | 18 => ⟨S16x1000x1000, .f32⟩
  | 19 => ⟨S16x998x998, .f32⟩
  | 20 => ⟨S16x998x998, .f32⟩
  | 21 => ⟨S16x998x998, .f32⟩
  | 22 => ⟨S_, .f32⟩
  | 23 => ⟨S16x998x998, .f32⟩
  | 24 => ⟨S16x998x998, .f32⟩
  | 25 => ⟨S_, .i32⟩
  | 26 => ⟨S_, .f32⟩
  | 27 => ⟨S16x1000x1000, .f32⟩
  | 28 => ⟨S1x1000x1000, .f32⟩
  | 29 => ⟨S16x1000x1000, .f32⟩
  | 30 => ⟨S16x1000x1000, .f32⟩
  | 31 => ⟨S_, .f32⟩
  | 32 => ⟨S1000x1000, .f32⟩
  | 33 => ⟨S1000x1000, .f32⟩
  | 34 => ⟨S_, .f32⟩
  | 35 => ⟨S1000x1000, .f32⟩
  | 36 => ⟨S1000x1000, .f32⟩
  | 37 => ⟨S_, .f32⟩
  | 38 => ⟨S1000x1000, .f32⟩
  | 39 => ⟨S1000x1000, .f32⟩
  | 40 => ⟨S1x1000x1000, .f32⟩
  | 41 => ⟨S16x1000x1000, .f32⟩
  | 42 => ⟨S16x1000x1000, .f32⟩
  | 43 => ⟨S16x1000x1000, .f32⟩
  | 44 => ⟨S_, .f32⟩
  | 45 => ⟨S1000x1000, .f32⟩
  | 46 => ⟨S1000x1000, .f32⟩
  | 47 => ⟨S_, .f32⟩
  | 48 => ⟨S1000x1000, .f32⟩
  | 49 => ⟨S1000x1000, .f32⟩
  | 50 => ⟨S_, .f32⟩
  | 51 => ⟨S1000x1000, .f32⟩
  | 52 => ⟨S1000x1000, .f32⟩
  | 53 => ⟨S1x1000x1000, .f32⟩
  | 54 => ⟨S16x1000x1000, .f32⟩
  | 55 => ⟨S16x1000x1000, .f32⟩
  | 56 => ⟨S1x1000x1000, .f32⟩
  | 57 => ⟨S16x1000x1000, .f32⟩
  | 58 => ⟨S16x1000x1000, .f32⟩
  | 59 => ⟨S_, .f32⟩
  | 60 => ⟨S1000x1000, .f32⟩
  | 61 => ⟨S1000x1000, .f32⟩
  | 62 => ⟨S_, .f32⟩
  | 63 => ⟨S1000x1000, .f32⟩
  | 64 => ⟨S1000x1000, .f32⟩
  | 65 => ⟨S_, .f32⟩
  | 66 => ⟨S1000x1000, .f32⟩
  | 67 => ⟨S1000x1000, .f32⟩
  | 68 => ⟨S1x1000x1000, .f32⟩
  | 69 => ⟨S16x1000x1000, .f32⟩
  | 70 => ⟨S16x1000x1000, .f32⟩
  | 71 => ⟨S16x1000x1000, .f32⟩
  | 72 => ⟨S_, .f32⟩
  | 73 => ⟨S1000x1000, .f32⟩
  | 74 => ⟨S1000x1000, .f32⟩
  | 75 => ⟨S_, .f32⟩
  | 76 => ⟨S1000x1000, .f32⟩
  | 77 => ⟨S1000x1000, .f32⟩
  | 78 => ⟨S_, .f32⟩
  | 79 => ⟨S1000x1000, .f32⟩
  | 80 => ⟨S1000x1000, .f32⟩
  | 81 => ⟨S1x1000x1000, .f32⟩
  | 82 => ⟨S16x1000x1000, .f32⟩
  | 83 => ⟨S16x1000x1000, .f32⟩
  | 84 => ⟨S16x1000x1000, .f32⟩
  | 85 => ⟨S_, .f32⟩
  | 86 => ⟨S16x1000x1000, .f32⟩
  | 87 => ⟨S16x1000x1000, .f32⟩
  | 88 => ⟨S16x1000x1000, .f32⟩
  | 89 => ⟨S16x998x999, .f32⟩
  | 90 => ⟨S16x998x999, .f32⟩
  | 91 => ⟨S16x998x999, .f32⟩
  | 92 => ⟨S_, .f32⟩
  | 93 => ⟨S16x998x999, .f32⟩
  | 94 => ⟨S16x998x999, .f32⟩
  | 95 => ⟨S16x999x998, .f32⟩
  | 96 => ⟨S16x999x998, .f32⟩
  | 97 => ⟨S16x999x998, .f32⟩
  | 98 => ⟨S_, .f32⟩
  | 99 => ⟨S16x999x998, .f32⟩
  | 100 => ⟨S16x999x998, .f32⟩
  | 101 => ⟨S_, .f32⟩
  | 102 => ⟨S998x999, .f32⟩
  | 103 => ⟨S998x999, .f32⟩
  | 104 => ⟨S_, .f32⟩
  | 105 => ⟨S998x999, .f32⟩
  | 106 => ⟨S998x999, .f32⟩
  | 107 => ⟨S_, .f32⟩
  | 108 => ⟨S998x999, .f32⟩
  | 109 => ⟨S998x999, .f32⟩
  | 110 => ⟨S1x998x999, .f32⟩
  | 111 => ⟨S16x998x999, .f32⟩
  | 112 => ⟨S16x998x999, .f32⟩
  | 113 => ⟨S_, .f32⟩
  | 114 => ⟨S16x998x999, .f32⟩
  | 115 => ⟨S16x998x999, .f32⟩
  | 116 => ⟨S16x998x999, .f32⟩
  | 117 => ⟨S_, .f32⟩
  | 118 => ⟨S998x999, .f32⟩
  | 119 => ⟨S998x999, .f32⟩
  | 120 => ⟨S_, .f32⟩
  | 121 => ⟨S998x999, .f32⟩
  | 122 => ⟨S998x999, .f32⟩
  | 123 => ⟨S_, .f32⟩
  | 124 => ⟨S998x999, .f32⟩
  | 125 => ⟨S998x999, .f32⟩
  | 126 => ⟨S1x998x999, .f32⟩
  | 127 => ⟨S16x998x999, .f32⟩
  | _ => ⟨S16x1000x1000, .f32⟩

abbrev hbmTy0_1 (i : Nat) : BufTy := match i % 128 with
  | 0 => ⟨S16x998x999, .f32⟩
  | 1 => ⟨S_, .f32⟩
  | 2 => ⟨S999x998, .f32⟩
  | 3 => ⟨S999x998, .f32⟩
  | 4 => ⟨S_, .f32⟩
  | 5 => ⟨S999x998, .f32⟩
  | 6 => ⟨S999x998, .f32⟩
  | 7 => ⟨S_, .f32⟩
  | 8 => ⟨S999x998, .f32⟩
  | 9 => ⟨S999x998, .f32⟩
  | 10 => ⟨S1x999x998, .f32⟩
  | 11 => ⟨S16x999x998, .f32⟩
  | 12 => ⟨S16x999x998, .f32⟩
  | 13 => ⟨S_, .f32⟩
  | 14 => ⟨S16x999x998, .f32⟩
  | 15 => ⟨S16x999x998, .f32⟩
  | 16 => ⟨S16x999x998, .f32⟩
  | 17 => ⟨S_, .f32⟩
  | 18 => ⟨S999x998, .f32⟩
  | 19 => ⟨S999x998, .f32⟩
  | 20 => ⟨S_, .f32⟩
  | 21 => ⟨S999x998, .f32⟩
  | 22 => ⟨S999x998, .f32⟩
  | 23 => ⟨S_, .f32⟩
  | 24 => ⟨S999x998, .f32⟩
  | 25 => ⟨S999x998, .f32⟩
  | 26 => ⟨S1x999x998, .f32⟩
  | 27 => ⟨S16x999x998, .f32⟩
  | 28 => ⟨S16x999x998, .f32⟩
  | _ => ⟨S16x1000x1000, .f32⟩

abbrev hbmTy (i : Nat) : BufTy := match i / 128 with
  | 0 => hbmTy0_0 i
  | 1 => hbmTy0_1 i
  | _ => ⟨S16x1000x1000, .f32⟩

abbrev bufTy : (tb : Table) → Fin (tcTables nBuf tb) → BufTy
  | .hbm, ⟨i, _⟩ => hbmTy i
  | _, _ => ⟨S16x1000x1000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_cst : Ref sig .tc := ⟨.hbm, 13, rfl⟩
abbrev main_v3 : Ref sig .tc := ⟨.hbm, 14, rfl⟩
abbrev main_v4 : Ref sig .tc := ⟨.hbm, 15, rfl⟩
abbrev main_c : Ref sig .tc := ⟨.hbm, 16, rfl⟩
abbrev main_call0_v0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_cst_0 : Ref sig .tc := ⟨.hbm, 22, rfl⟩
abbrev main_v9 : Ref sig .tc := ⟨.hbm, 23, rfl⟩
abbrev main_v10 : Ref sig .tc := ⟨.hbm, 24, rfl⟩
abbrev main_c_1 : Ref sig .tc := ⟨.hbm, 25, rfl⟩
abbrev main_call1_v0 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_cst_2 : Ref sig .tc := ⟨.hbm, 31, rfl⟩
abbrev main_v15 : Ref sig .tc := ⟨.hbm, 32, rfl⟩
abbrev main_v16 : Ref sig .tc := ⟨.hbm, 33, rfl⟩
abbrev main_cst_3 : Ref sig .tc := ⟨.hbm, 34, rfl⟩
abbrev main_v17 : Ref sig .tc := ⟨.hbm, 35, rfl⟩
abbrev main_v18 : Ref sig .tc := ⟨.hbm, 36, rfl⟩
abbrev main_cst_4 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_cst_5 : Ref sig .tc := ⟨.hbm, 44, rfl⟩
abbrev main_v25 : Ref sig .tc := ⟨.hbm, 45, rfl⟩
abbrev main_v26 : Ref sig .tc := ⟨.hbm, 46, rfl⟩
abbrev main_cst_6 : Ref sig .tc := ⟨.hbm, 47, rfl⟩
abbrev main_v27 : Ref sig .tc := ⟨.hbm, 48, rfl⟩
abbrev main_v28 : Ref sig .tc := ⟨.hbm, 49, rfl⟩
abbrev main_cst_7 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_cst_8 : Ref sig .tc := ⟨.hbm, 59, rfl⟩
abbrev main_v37 : Ref sig .tc := ⟨.hbm, 60, rfl⟩
abbrev main_v38 : Ref sig .tc := ⟨.hbm, 61, rfl⟩
abbrev main_cst_9 : Ref sig .tc := ⟨.hbm, 62, rfl⟩
abbrev main_v39 : Ref sig .tc := ⟨.hbm, 63, rfl⟩
abbrev main_v40 : Ref sig .tc := ⟨.hbm, 64, rfl⟩
abbrev main_cst_10 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_cst_11 : Ref sig .tc := ⟨.hbm, 72, rfl⟩
abbrev main_v47 : Ref sig .tc := ⟨.hbm, 73, rfl⟩
abbrev main_v48 : Ref sig .tc := ⟨.hbm, 74, rfl⟩
abbrev main_cst_12 : Ref sig .tc := ⟨.hbm, 75, rfl⟩
abbrev main_v49 : Ref sig .tc := ⟨.hbm, 76, rfl⟩
abbrev main_v50 : Ref sig .tc := ⟨.hbm, 77, rfl⟩
abbrev main_cst_13 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_cst_14 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_cst_15 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_cst_16 : Ref sig .tc := ⟨.hbm, 98, rfl⟩
abbrev main_v68 : Ref sig .tc := ⟨.hbm, 99, rfl⟩
abbrev main_v69 : Ref sig .tc := ⟨.hbm, 100, rfl⟩
abbrev main_cst_17 : Ref sig .tc := ⟨.hbm, 101, rfl⟩
abbrev main_v70 : Ref sig .tc := ⟨.hbm, 102, rfl⟩
abbrev main_v71 : Ref sig .tc := ⟨.hbm, 103, rfl⟩
abbrev main_cst_18 : Ref sig .tc := ⟨.hbm, 104, rfl⟩
abbrev main_v72 : Ref sig .tc := ⟨.hbm, 105, rfl⟩
abbrev main_v73 : Ref sig .tc := ⟨.hbm, 106, rfl⟩
abbrev main_cst_19 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_cst_20 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_cst_21 : Ref sig .tc := ⟨.hbm, 117, rfl⟩
abbrev main_v82 : Ref sig .tc := ⟨.hbm, 118, rfl⟩
abbrev main_v83 : Ref sig .tc := ⟨.hbm, 119, rfl⟩
abbrev main_cst_22 : Ref sig .tc := ⟨.hbm, 120, rfl⟩
abbrev main_v84 : Ref sig .tc := ⟨.hbm, 121, rfl⟩
abbrev main_v85 : Ref sig .tc := ⟨.hbm, 122, rfl⟩
abbrev main_cst_23 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_cst_24 : Ref sig .tc := ⟨.hbm, 129, rfl⟩
abbrev main_v91 : Ref sig .tc := ⟨.hbm, 130, rfl⟩
abbrev main_v92 : Ref sig .tc := ⟨.hbm, 131, rfl⟩
abbrev main_cst_25 : Ref sig .tc := ⟨.hbm, 132, rfl⟩
abbrev main_v93 : Ref sig .tc := ⟨.hbm, 133, rfl⟩
abbrev main_v94 : Ref sig .tc := ⟨.hbm, 134, rfl⟩
abbrev main_cst_26 : Ref sig .tc := ⟨.hbm, 135, rfl⟩
abbrev main_v95 : Ref sig .tc := ⟨.hbm, 136, rfl⟩
abbrev main_v96 : Ref sig .tc := ⟨.hbm, 137, rfl⟩
abbrev main_v97 : Ref sig .tc := ⟨.hbm, 138, rfl⟩
abbrev main_v98 : Ref sig .tc := ⟨.hbm, 139, rfl⟩
abbrev main_v99 : Ref sig .tc := ⟨.hbm, 140, rfl⟩
abbrev main_cst_27 : Ref sig .tc := ⟨.hbm, 141, rfl⟩
abbrev main_v100 : Ref sig .tc := ⟨.hbm, 142, rfl⟩
abbrev main_v101 : Ref sig .tc := ⟨.hbm, 143, rfl⟩
abbrev main_v102 : Ref sig .tc := ⟨.hbm, 144, rfl⟩
abbrev main_cst_28 : Ref sig .tc := ⟨.hbm, 145, rfl⟩
abbrev main_v103 : Ref sig .tc := ⟨.hbm, 146, rfl⟩
abbrev main_v104 : Ref sig .tc := ⟨.hbm, 147, rfl⟩
abbrev main_cst_29 : Ref sig .tc := ⟨.hbm, 148, rfl⟩
abbrev main_v105 : Ref sig .tc := ⟨.hbm, 149, rfl⟩
abbrev main_v106 : Ref sig .tc := ⟨.hbm, 150, rfl⟩
abbrev main_cst_30 : Ref sig .tc := ⟨.hbm, 151, rfl⟩
abbrev main_v107 : Ref sig .tc := ⟨.hbm, 152, rfl⟩
abbrev main_v108 : Ref sig .tc := ⟨.hbm, 153, rfl⟩
abbrev main_v109 : Ref sig .tc := ⟨.hbm, 154, rfl⟩
abbrev main_v110 : Ref sig .tc := ⟨.hbm, 155, rfl⟩
abbrev main_v111 : Ref sig .tc := ⟨.hbm, 156, rfl⟩

abbrev nD : Nat := 1
abbrev τ : Topo := Topo.v7x

variable {F : FTy → Type} [FloatOps F]

class Facts₀ : Prop where
  slices_S16x998x999_S16x998x998_0_0_1 : S16x998x999.Slices ![0, 0, 1] S16x998x998
  slices_S16x998x999_S16x998x998_0_0_0 : S16x998x999.Slices ![0, 0, 0] S16x998x998
  bcast_S_S16x998x998 : S_.BroadcastsInDim S16x998x998 (![] : Fin 0 → Fin S16x998x998.rank)
  pads_S16x998x998_S16x1000x1000_000_110_110 : S16x998x998.Pads (![0, 1, 1] : Fin 3 → Nat) ![0, 1, 1] ![0, 0, 0] S16x1000x1000
  h_S_ : 0 < S_.numel
  slices_S16x999x998_S16x998x998_0_1_0 : S16x999x998.Slices ![0, 1, 0] S16x998x998
  slices_S16x999x998_S16x998x998_0_0_0 : S16x999x998.Slices ![0, 0, 0] S16x998x998
  bcast_S1000x1000_S1x1000x1000_1_2 : S1000x1000.BroadcastsInDim S1x1000x1000 (![1, 2] : Fin 2 → Fin S1x1000x1000.rank)
  bcast_S1x1000x1000_S16x1000x1000_0_1_2 : S1x1000x1000.BroadcastsInDim S16x1000x1000 (![0, 1, 2] : Fin 3 → Fin S16x1000x1000.rank)
  bcast_S_S1000x1000 : S_.BroadcastsInDim S1000x1000 (![] : Fin 0 → Fin S1000x1000.rank)
  bcast_S_S16x1000x1000 : S_.BroadcastsInDim S16x1000x1000 (![] : Fin 0 → Fin S16x1000x1000.rank)
  slices_S16x1000x1000_S16x998x999_0_1_1 : S16x1000x1000.Slices ![0, 1, 1] S16x998x999
  slices_S16x1000x1000_S16x998x999_0_1_0 : S16x1000x1000.Slices ![0, 1, 0] S16x998x999
  bcast_S_S16x998x999 : S_.BroadcastsInDim S16x998x999 (![] : Fin 0 → Fin S16x998x999.rank)
  slices_S16x1000x1000_S16x999x998_0_1_1 : S16x1000x1000.Slices ![0, 1, 1] S16x999x998
  slices_S16x1000x1000_S16x999x998_0_0_1 : S16x1000x1000.Slices ![0, 0, 1] S16x999x998
  bcast_S_S16x999x998 : S_.BroadcastsInDim S16x999x998 (![] : Fin 0 → Fin S16x999x998.rank)
  bcast_S_S998x999 : S_.BroadcastsInDim S998x999 (![] : Fin 0 → Fin S998x999.rank)
  bcast_S998x999_S1x998x999_1_2 : S998x999.BroadcastsInDim S1x998x999 (![1, 2] : Fin 2 → Fin S1x998x999.rank)
  bcast_S1x998x999_S16x998x999_0_1_2 : S1x998x999.BroadcastsInDim S16x998x999 (![0, 1, 2] : Fin 3 → Fin S16x998x999.rank)
  bcast_S_S999x998 : S_.BroadcastsInDim S999x998 (![] : Fin 0 → Fin S999x998.rank)
  bcast_S999x998_S1x999x998_1_2 : S999x998.BroadcastsInDim S1x999x998 (![1, 2] : Fin 2 → Fin S1x999x998.rank)
  bcast_S1x999x998_S16x999x998_0_1_2 : S1x999x998.BroadcastsInDim S16x999x998 (![0, 1, 2] : Fin 3 → Fin S16x999x998.rank)

variable [Facts₀]

class Facts : Prop extends Facts₀ where

variable [Facts]
-- ==== Proof.Stencil.lean ====
/-
  One time step of a split-field acoustic wave update with damping layers, as functions of the argument arrays.

  Sixteen shots on a 1000 x 1000 grid. The pressure is split into an x part and a z part; the auxiliary fields live on
  half grids staggered in x (998 x 999 inside points) and in z (999 x 998). With time step `dt`, spacing `h`, a
  coefficient plane `κ` and damping planes `σ`, one step is

    px' = (κ · d + (1 − σx · dt/2) · px) / (1 + σx · dt/2)        (d: the padded x-difference of the x-staggered field)
    pz' likewise with σz and the z-difference,
    p   = px' + pz' + src · dt,
    ax' = ((1 − σ · dt/2) · ax + dt · (p(east) − p(west)) / h) / (1 + σ · dt/2),
    az' likewise with the north and south neighbours.

  All arithmetic is on the extended reals. One program spells the half step as the product `σ · c` with `c` the
  binary32 number nearest 0.0005, the other as the quotient `(σ · c') / 2` with `c'` the binary32 number nearest 0.001.
  The two literals have the same significand and exponents one apart, so `c = c' / 2` exactly; dividing an extended
  real by the real 2 is multiplying it by 1/2, and multiplication of extended reals is associative, so the two
  spellings agree at EVERY extended real `σ` (`half_step`): no finiteness of the inputs is used anywhere.
-/
import Idealize.ShloMosaic.PureOps.Ideal
import Idealize.ShloMosaic.PureOps.Ideal.Laws
import Idealize.ShloMosaic.Lib.ValueIdx

noncomputable section

namespace Cert.Stencil

open Idealize.ShloMosaic

/-! ## The grids -/

/-- All shots' full grid. -/
abbrev Grid : Shape := ⟨3, ![16, 1000, 1000]⟩
/-- One coefficient plane of the full grid. -/
abbrev Plane : Shape := ⟨2, ![1000, 1000]⟩
/-- The half grid staggered in x, inside points only. -/
abbrev GridX : Shape := ⟨3, ![16, 998, 999]⟩
abbrev PlaneX : Shape := ⟨2, ![998, 999]⟩
/-- The half grid staggered in z, inside points only. -/
abbrev GridZ : Shape := ⟨3, ![16, 999, 998]⟩
abbrev PlaneZ : Shape := ⟨2, ![999, 998]⟩

/-- The plane point under a grid point: the shot axis dropped. -/
abbrev under (i : Grid.Idx) : Plane.Idx := fun a => match a with
  | ⟨0, _⟩ => ⟨(i 1).val, (i 1).isLt⟩
  | ⟨1, _⟩ => ⟨(i 2).val, (i 2).isLt⟩
abbrev underX (i : GridX.Idx) : PlaneX.Idx := fun a => match a with
  | ⟨0, _⟩ => ⟨(i 1).val, (i 1).isLt⟩
  | ⟨1, _⟩ => ⟨(i 2).val, (i 2).isLt⟩
abbrev underZ (i : GridZ.Idx) : PlaneZ.Idx := fun a => match a with
  | ⟨0, _⟩ => ⟨(i 1).val, (i 1).isLt⟩
  | ⟨1, _⟩ => ⟨(i 2).val, (i 2).isLt⟩

/-- The full-grid neighbours of an x-staggered inside point `(s, r, q)`: `(s, r+1, q+1)` and `(s, r+1, q)`. -/
abbrev east (i : GridX.Idx) : Grid.Idx := fun a => match a with
  | ⟨0, _⟩ => ⟨(i 0).val, (i 0).isLt⟩
  | ⟨1, _⟩ => ⟨1 + (i 1).val, by have h : (i 1).val < 998 := (i 1).isLt; show 1 + (i 1).val < 1000; omega⟩
  | ⟨2, _⟩ => ⟨1 + (i 2).val, by have h : (i 2).val < 999 := (i 2).isLt; show 1 + (i 2).val < 1000; omega⟩
abbrev west (i : GridX.Idx) : Grid.Idx := fun a => match a with
  | ⟨0, _⟩ => ⟨(i 0).val, (i 0).isLt⟩
  | ⟨1, _⟩ => ⟨1 + (i 1).val, by have h : (i 1).val < 998 := (i 1).isLt; show 1 + (i 1).val < 1000; omega⟩
  | ⟨2, _⟩ => ⟨(i 2).val, by have h : (i 2).val < 999 := (i 2).isLt; show (i 2).val < 1000; omega⟩
/-- The full-grid neighbours of a z-staggered inside point `(s, r, q)`: `(s, r+1, q+1)` and `(s, r, q+1)`. -/
abbrev south (i : GridZ.Idx) : Grid.Idx := fun a => match a with
  | ⟨0, _⟩ => ⟨(i 0).val, (i 0).isLt⟩
  | ⟨1, _⟩ => ⟨1 + (i 1).val, by have h : (i 1).val < 999 := (i 1).isLt; show 1 + (i 1).val < 1000; omega⟩
  | ⟨2, _⟩ => ⟨1 + (i 2).val, by have h : (i 2).val < 998 := (i 2).isLt; show 1 + (i 2).val < 1000; omega⟩
abbrev north (i : GridZ.Idx) : Grid.Idx := fun a => match a with
  | ⟨0, _⟩ => ⟨(i 0).val, (i 0).isLt⟩
  | ⟨1, _⟩ => ⟨(i 1).val, by have h : (i 1).val < 999 := (i 1).isLt; show (i 1).val < 1000; omega⟩
  | ⟨2, _⟩ => ⟨1 + (i 2).val, by have h : (i 2).val < 998 := (i 2).isLt; show 1 + (i 2).val < 1000; omega⟩

/-! ## The literals -/

/-- The time step: the binary32 number nearest 0.001. -/
abbrev dt : EReal := Ideal.ofBits .f32 0x3A83126F#32
/-- Half the time step as one literal: the binary32 number nearest 0.0005. -/
abbrev hdt : EReal := Ideal.ofBits .f32 0x3A03126F#32
abbrev one : EReal := Ideal.ofBits .f32 0x3F800000#32
abbrev two : EReal := Ideal.ofBits .f32 0x40000000#32
/-- The grid spacing, 10. -/
abbrev hx : EReal := Ideal.ofBits .f32 0x41200000#32

theorem dt_val : dt = ((8589935 / 8589934592 : ℝ) : EReal) := by
  simp [Ideal.ofBits, Ideal.ieee, -EReal.coe_mul]; norm_num

theorem hdt_val : hdt = ((8589935 / 17179869184 : ℝ) : EReal) := by
  simp [Ideal.ofBits, Ideal.ieee, -EReal.coe_mul]; norm_num

theorem two_val : two = ((2 : ℝ) : EReal) := by
  simp [Ideal.ofBits, Ideal.ieee, -EReal.coe_mul]; norm_num

/-- THE LAW that joins the two programs: halving `σ · dt` is scaling `σ` by the half-step literal, at every extended
    real `σ`. (8589935 · 2⁻³³) / 2 = 8589935 · 2⁻³⁴, and `x / 2 = x · (1/2)`, `(x · a) · b = x · (a · b)` on the extended reals. -/
theorem half_step (σ : EReal) : Ideal.div (σ * dt) two = σ * hdt := by
  rw [two_val, Ideal.div_coe (by norm_num : (2 : ℝ) ≠ 0), dt_val, hdt_val, mul_assoc, ← EReal.coe_mul]
  congr 2; norm_num

/-! ## One point -/

/-- A split pressure part's new value from the coefficient `κ`, the damping `σ`, the padded difference `d` and the old value `p`. -/
def pUpd (κ σ d p : EReal) : EReal := Ideal.div (κ * d + (one - σ * hdt) * p) (one + σ * hdt)

/-- A staggered field's new value from the damping `σ`, the old value `a` and the pressure's scaled difference `g`. -/
def aUpd (σ a g : EReal) : EReal := Ideal.div ((one - σ * hdt) * a + dt * g) (one + σ * hdt)

/-- The total pressure at a point from its two parts and the source sample. -/
def tot3 (u v s : EReal) : EReal := u + v + s * dt

/-- The pressure's difference across a staggered point over the spacing, from the two neighbouring samples. -/
def grad (e w : EReal) : EReal := Ideal.div (e - w) hx

/-- `pUpd` with the half step spelt as a quotient. -/
theorem pUpd_quot (κ σ d p : EReal) :
    Ideal.div (κ * d + (one - Ideal.div (σ * dt) two) * p) (one + Ideal.div (σ * dt) two) = pUpd κ σ d p := by
  rw [half_step]; rfl

/-- `aUpd` with the half step spelt as a quotient. -/
theorem aUpd_quot (σ a g : EReal) :
    Ideal.div ((one - Ideal.div (σ * dt) two) * a + dt * g) (one + Ideal.div (σ * dt) two) = aUpd σ a g := by
  rw [half_step]; rfl

/-! ## The arrays after the step -/

/-- A split pressure part after the step. -/
def pNew (κ σ : Plane.Idx → EReal) (d p : Grid.Idx → EReal) : Grid.Idx → EReal :=
  fun i => pUpd (κ (under i)) (σ (under i)) (d i) (p i)

/-- The total pressure after the step: both parts and the source. -/
def pTot (κ σx σz : Plane.Idx → EReal) (dx dz px pz src : Grid.Idx → EReal) : Grid.Idx → EReal :=
  fun i => tot3 (pNew κ σx dx px i) (pNew κ σz dz pz i) (src i)

/-- The x-staggered field after the step, from the NEW total pressure `P`. -/
def axNew (σ : PlaneX.Idx → EReal) (a : GridX.Idx → EReal) (P : Grid.Idx → EReal) : GridX.Idx → EReal :=
  fun i => aUpd (σ (underX i)) (a i) (grad (P (east i)) (P (west i)))

/-- The z-staggered field after the step, from the NEW total pressure `P`. -/
def azNew (σ : PlaneZ.Idx → EReal) (a : GridZ.Idx → EReal) (P : Grid.Idx → EReal) : GridZ.Idx → EReal :=
  fun i => aUpd (σ (underZ i)) (a i) (grad (P (south i)) (P (north i)))

end Cert.Stencil

end
-- ==== Proof.PressureRegion.lean ====
/-
  The first region: both pressure parts and their total, on all sixteen shots.

  The region walks 5 row bands of 200 rows by 16 shots. At a point it holds a [1, 200, 1000] block of each grid-sized
  operand (the two padded differences, the two old pressure parts, the source) and the matching [200, 1000] block of
  each coefficient plane, and writes three [1, 200, 1000] blocks. At the block point `(0, r, q)` the body computes the
  point update `pUpd` of the plane entries at `(r, q)` and the grid entries at `(0, r, q)` — a plane block is first given
  a leading unit axis, which reads it at the trailing coordinates — and for the total adds the two parts and `src · dt`.
  Every grid-sized window, input or output, places its block of point `t` at the same shot and row band, and every
  plane window at that row band (one decided table over the 80 points). So block `t` of each output is block `t` of
  ONE whole-grid function of the arrays; the 80 blocks tile the grid, so after the region each output array IS that
  function: `pNew` for the parts, `pTot` for the total.
-/
import proofs.«424261_j37804302139960_3_alg».proof.Proof.Gen.KernelIdeal.Frame
import proofs.«424261_j37804302139960_3_alg».proof.Proof.Stencil
import Idealize.ShloMosaic.Lib.Pipeline.Value
import Idealize.ShloMosaic.Lib.ValueIdx

set_option maxRecDepth 16384

noncomputable section

namespace Cert.KernelIdeal.PressureRegion

open Cert.KernelIdeal Cert.KernelIdeal.Gen Cert.Stencil
open Idealize.ShloMosaic Idealize.ShloMosaic.ValueIdx Idealize.ShloMosaic.TcCoe
open Idealize.ShloMosaic.Pipeline (Dat Cfg Window)

-- The buffers' contents when the region is entered: a parameter, as in the frame the values are read off.
variable (V : (c : Dev nD) → (b : Ref sig .tc) → Buf (Elt Ideal) ((c : Thread nD τ).loc b))

theorem hz3 : (![0, 0, 0] : Fin 3 → Nat) = fun _ => 0 := funext fun a => by fin_cases a <;> rfl
theorem hz2 : (![0, 0] : Fin 2 → Nat) = fun _ => 0 := funext fun a => by fin_cases a <;> rfl

/-! ## The body's values at a block point -/

/-- The x part at the block point `y`: the point update of the plane blocks at `y`'s row and column and the grid blocks at `y`. -/
theorem pay3_apply (sg md : Vec Ideal S200x1000 .f32) (d p : Vec Ideal S1x200x1000 .f32) (y : S1x200x1000.Idx) :
    k0_pay3 (F := Ideal) sg md d p y = pUpd (md (fun a => y a.succ)) (sg (fun a => y a.succ)) (d y) (p y) := by
  unfold k0_pay3
  simp only [divf_apply, addf_apply, mulf_apply, subf_apply, shapeCast_self, shapeCast_addUnit_apply, broadcast_apply]
  rfl

/-- The z part's first summand `κ · d`. -/
theorem pay4_apply (md : Vec Ideal S200x1000 .f32) (d : Vec Ideal S1x200x1000 .f32) (y : S1x200x1000.Idx) :
    k0_pay4 (F := Ideal) md d y = md (fun a => y a.succ) * d y := by
  unfold k0_pay4
  simp only [mulf_apply, shapeCast_self, shapeCast_addUnit_apply]

/-- The z part's quotient over given numerator pieces. -/
theorem pay1_apply (sg : Vec Ideal S200x1000 .f32) (p : Vec Ideal S1x200x1000 .f32) (v26 : FVec Ideal S1x200x1000 .f32)
    (v30 : FVec Ideal S200x1000 .f32) (y : S1x200x1000.Idx) :
    k0_pay1 (F := Ideal) sg p v26 v30 y = Ideal.div (v26 y + v30 (fun a => y a.succ) * p y) (one + sg (fun a => y a.succ) * hdt) := by
  unfold k0_pay1
  simp only [divf_apply, addf_apply, mulf_apply, shapeCast_addUnit_apply, broadcast_apply]
  rfl

/-- The z part at the block point `y`: the same point update, with the z operands. -/
theorem partZ_apply (sg md : Vec Ideal S200x1000 .f32) (d p : Vec Ideal S1x200x1000 .f32) (y : S1x200x1000.Idx) :
    k0_pay1 (F := Ideal) sg p (k0_pay4 md d) (k0_pay5 sg) y = pUpd (md (fun a => y a.succ)) (sg (fun a => y a.succ)) (d y) (p y) := by
  rw [pay1_apply, pay4_apply]; rfl

/-- The total at the block point `y`: the two parts and `src · dt`. -/
theorem total_apply (sgx sgz md : Vec Ideal S200x1000 .f32) (dx dz px pz src : Vec Ideal S1x200x1000 .f32) (y : S1x200x1000.Idx) :
    k0_pay2 (F := Ideal) sgz pz src (k0_pay3 sgx md dx px) (k0_pay4 md dz) (k0_pay5 sgz) y
      = tot3 (pUpd (md (fun a => y a.succ)) (sgx (fun a => y a.succ)) (dx y) (px y))
          (pUpd (md (fun a => y a.succ)) (sgz (fun a => y a.succ)) (dz y) (pz y)) (src y) := by
  show tot3 (k0_pay3 (F := Ideal) sgx md dx px y) (k0_pay1 (F := Ideal) sgz pz (k0_pay4 md dz) (k0_pay5 sgz) y) (src y) = _
  rw [pay3_apply, partZ_apply]

/-! ## Where the blocks sit -/

/-- A block position `ix` agrees with another, `ox`, on the three grid axes. -/
abbrev SameG (ix ox : Fin 3 → Nat) : Prop := ix 0 = ox 0 ∧ ix 1 = ox 1 ∧ ix 2 = ox 2
/-- A plane's block position `ix` is the row-and-column part of the grid block position `ox`. -/
abbrev SameP (ix : Fin 2 → Nat) (ox : Fin 3 → Nat) : Prop := ix 0 = ox 1 ∧ ix 1 = ox 2

/-- The printed index maps, decided once over the 80 grid points: every grid-sized window's block sits where the
    first output's does, every plane's at its row band. -/
theorem places : ∀ t : Fin cfg0.N,
    SameG (win0_0.index t) (win0_8.index t) ∧ SameG (win0_1.index t) (win0_8.index t) ∧ SameG (win0_2.index t) (win0_8.index t)
    ∧ SameG (win0_3.index t) (win0_8.index t) ∧ SameG (win0_4.index t) (win0_8.index t)
    ∧ SameG (win0_9.index t) (win0_8.index t) ∧ SameG (win0_10.index t) (win0_8.index t)
    ∧ SameP (win0_5.index t) (win0_8.index t) ∧ SameP (win0_6.index t) (win0_8.index t) ∧ SameP (win0_7.index t) (win0_8.index t) :=
  (by decide +kernel : ∀ t : Fin grid0.N, _)

/-- Every (shot, row band) pair is some grid point's block position. -/
theorem onto : ∀ (q0 : Fin 16) (q1 : Fin 5), ∃ t : Fin cfg0.N, win0_8.index t = ![q0.val, q1.val, 0] :=
  (by decide +kernel : ∀ (q0 : Fin 16) (q1 : Fin 5), ∃ t : Fin grid0.N, win0_8.index t = ![q0.val, q1.val, 0])

/-- The first output's block of point `t`, as a map from block points to grid points: the hub the others are compared with. -/
abbrev at8 (t : Fin cfg0.N) (j : S1x200x1000.Idx) : S16x1000x1000.Idx := ((cfg0.win 8).blk t).view.emb j

theorem emb0 (t : Fin cfg0.N) (j : S1x200x1000.Idx) : ((cfg0.win 0).blk t).view.emb j = at8 t j := by
  obtain ⟨⟨e0, e1, e2⟩, -⟩ := places t
  funext a; apply Fin.ext
  match a with
  | ⟨0, _⟩ => show win0_0.index t (0 : Fin 3) * 1 + 1 * (j 0).val = win0_8.index t (0 : Fin 3) * 1 + 1 * (j 0).val; omega
  | ⟨1, _⟩ => show win0_0.index t (1 : Fin 3) * 200 + 1 * (j 1).val = win0_8.index t (1 : Fin 3) * 200 + 1 * (j 1).val; omega
  | ⟨2, _⟩ => show win0_0.index t (2 : Fin 3) * 1000 + 1 * (j 2).val = win0_8.index t (2 : Fin 3) * 1000 + 1 * (j 2).val; omega

theorem emb1 (t : Fin cfg0.N) (j : S1x200x1000.Idx) : ((cfg0.win 1).blk t).view.emb j = at8 t j := by
  obtain ⟨-, ⟨e0, e1, e2⟩, -⟩ := places t
  funext a; apply Fin.ext
  match a with
  | ⟨0, _⟩ => show win0_1.index t (0 : Fin 3) * 1 + 1 * (j 0).val = win0_8.index t (0 : Fin 3) * 1 + 1 * (j 0).val; omega
  | ⟨1, _⟩ => show win0_1.index t (1 : Fin 3) * 200 + 1 * (j 1).val = win0_8.index t (1 : Fin 3) * 200 + 1 * (j 1).val; omega
  | ⟨2, _⟩ => show win0_1.index t (2 : Fin 3) * 1000 + 1 * (j 2).val = win0_8.index t (2 : Fin 3) * 1000 + 1 * (j 2).val; omega

theorem emb2 (t : Fin cfg0.N) (j : S1x200x1000.Idx) : ((cfg0.win 2).blk t).view.emb j = at8 t j := by
  obtain ⟨-, -, ⟨e0, e1, e2⟩, -⟩ := places t
  funext a; apply Fin.ext
  match a with
  | ⟨0, _⟩ => show win0_2.index t (0 : Fin 3) * 1 + 1 * (j 0).val = win0_8.index t (0 : Fin 3) * 1 + 1 * (j 0).val; omega
  | ⟨1, _⟩ => show win0_2.index t (1 : Fin 3) * 200 + 1 * (j 1).val = win0_8.index t (1 : Fin 3) * 200 + 1 * (j 1).val; omega
  | ⟨2, _⟩ => show win0_2.index t (2 : Fin 3) * 1000 + 1 * (j 2).val = win0_8.index t (2 : Fin 3) * 1000 + 1 * (j 2).val; omega

theorem emb3 (t : Fin cfg0.N) (j : S1x200x1000.Idx) : ((cfg0.win 3).blk t).view.emb j = at8 t j := by
  obtain ⟨-, -, -, ⟨e0, e1, e2⟩, -⟩ := places t
  funext a; apply Fin.ext
  match a with
  | ⟨0, _⟩ => show win0_3.index t (0 : Fin 3) * 1 + 1 * (j 0).val = win0_8.index t (0 : Fin 3) * 1 + 1 * (j 0).val; omega
  | ⟨1, _⟩ => show win0_3.index t (1 : Fin 3) * 200 + 1 * (j 1).val = win0_8.index t (1 : Fin 3) * 200 + 1 * (j 1).val; omega
  | ⟨2, _⟩ => show win0_3.index t (2 : Fin 3) * 1000 + 1 * (j 2).val = win0_8.index t (2 : Fin 3) * 1000 + 1 * (j 2).val; omega

theorem emb4 (t : Fin cfg0.N) (j : S1x200x1000.Idx) : ((cfg0.win 4).blk t).view.emb j = at8 t j := by
  obtain ⟨-, -, -, -, ⟨e0, e1, e2⟩, -⟩ := places t
  funext a; apply Fin.ext
  match a with
  | ⟨0, _⟩ => show win0_4.index t (0 : Fin 3) * 1 + 1 * (j 0).val = win0_8.index t (0 : Fin 3) * 1 + 1 * (j 0).val; omega
  | ⟨1, _⟩ => show win0_4.index t (1 : Fin 3) * 200 + 1 * (j 1).val = win0_8.index t (1 : Fin 3) * 200 + 1 * (j 1).val; omega
  | ⟨2, _⟩ => show win0_4.index t (2 : Fin 3) * 1000 + 1 * (j 2).val = win0_8.index t (2 : Fin 3) * 1000 + 1 * (j 2).val; omega

theorem emb9 (t : Fin cfg0.N) (j : S1x200x1000.Idx) : ((cfg0.win 9).blk t).view.emb j = at8 t j := by
  obtain ⟨-, -, -, -, -, ⟨e0, e1, e2⟩, -⟩ := places t
  funext a; apply Fin.ext
  match a with
  | ⟨0, _⟩ => show win0_9.index t (0 : Fin 3) * 1 + 1 * (j 0).val = win0_8.index t (0 : Fin 3) * 1 + 1 * (j 0).val; omega
  | ⟨1, _⟩ => show win0_9.index t (1 : Fin 3) * 200 + 1 * (j 1).val = win0_8.index t (1 : Fin 3) * 200 + 1 * (j 1).val; omega
  | ⟨2, _⟩ => show win0_9.index t (2 : Fin 3) * 1000 + 1 * (j 2).val = win0_8.index t (2 : Fin 3) * 1000 + 1 * (j 2).val; omega

theorem emb10 (t : Fin cfg0.N) (j : S1x200x1000.Idx) : ((cfg0.win 10).blk t).view.emb j = at8 t j := by
  obtain ⟨-, -, -, -, -, -, ⟨e0, e1, e2⟩, -⟩ := places t
  funext a; apply Fin.ext
  match a with
  | ⟨0, _⟩ => show win0_10.index t (0 : Fin 3) * 1 + 1 * (j 0).val = win0_8.index t (0 : Fin 3) * 1 + 1 * (j 0).val; omega
  | ⟨1, _⟩ => show win0_10.index t (1 : Fin 3) * 200 + 1 * (j 1).val = win0_8.index t (1 : Fin 3) * 200 + 1 * (j 1).val; omega
  | ⟨2, _⟩ => show win0_10.index t (2 : Fin 3) * 1000 + 1 * (j 2).val = win0_8.index t (2 : Fin 3) * 1000 + 1 * (j 2).val; omega

/-- A plane block read at a block point's row and column is the plane read under the point's place in the grid. -/
theorem emb5 (t : Fin cfg0.N) (j : S1x200x1000.Idx) : ((cfg0.win 5).blk t).view.emb (fun a => j a.succ) = under (at8 t j) := by
  obtain ⟨-, -, -, -, -, -, -, ⟨e0, e1⟩, -⟩ := places t
  funext a; apply Fin.ext
  match a with
  | ⟨0, _⟩ => show win0_5.index t (0 : Fin 2) * 200 + 1 * (j 1).val = win0_8.index t (1 : Fin 3) * 200 + 1 * (j 1).val; omega
  | ⟨1, _⟩ => show win0_5.index t (1 : Fin 2) * 1000 + 1 * (j 2).val = win0_8.index t (2 : Fin 3) * 1000 + 1 * (j 2).val; omega

theorem emb6 (t : Fin cfg0.N) (j : S1x200x1000.Idx) : ((cfg0.win 6).blk t).view.emb (fun a => j a.succ) = under (at8 t j) := by
  obtain ⟨-, -, -, -, -, -, -, -, ⟨e0, e1⟩, -⟩ := places t
  funext a; apply Fin.ext
  match a with
  | ⟨0, _⟩ => show win0_6.index t (0 : Fin 2) * 200 + 1 * (j 1).val = win0_8.index t (1 : Fin 3) * 200 + 1 * (j 1).val; omega
  | ⟨1, _⟩ => show win0_6.index t (1 : Fin 2) * 1000 + 1 * (j 2).val = win0_8.index t (2 : Fin 3) * 1000 + 1 * (j 2).val; omega

theorem emb7 (t : Fin cfg0.N) (j : S1x200x1000.Idx) : ((cfg0.win 7).blk t).view.emb (fun a => j a.succ) = under (at8 t j) := by
  obtain ⟨-, -, -, -, -, -, -, -, -, e0, e1⟩ := places t
  funext a; apply Fin.ext
  match a with
  | ⟨0, _⟩ => show win0_7.index t (0 : Fin 2) * 200 + 1 * (j 1).val = win0_8.index t (1 : Fin 3) * 200 + 1 * (j 1).val; omega
  | ⟨1, _⟩ => show win0_7.index t (1 : Fin 2) * 1000 + 1 * (j 2).val = win0_8.index t (2 : Fin 3) * 1000 + 1 * (j 2).val; omega

/-! ## What a grid point writes back -/

/-- At a block point of point `t`, the body's x part is the x part of the step at the point's place in the grid. -/
theorem point8 (c : Dev nD) (t : Fin cfg0.N) (j : S1x200x1000.Idx) :
    k0_pay3 (F := Ideal) (iblk0 V c 6 t) (iblk0 V c 5 t) (iblk0 V c 0 t) (iblk0 V c 2 t) j
      = pNew (V c (Pipeline.arrRef spec0 5)) (V c (Pipeline.arrRef spec0 6)) (V c (Pipeline.arrRef spec0 0)) (V c (Pipeline.arrRef spec0 2)) (at8 t j) := by
  refine (pay3_apply (iblk0 V c 6 t) (iblk0 V c 5 t) (iblk0 V c 0 t) (iblk0 V c 2 t) j).trans ?_
  show pUpd (V c (Pipeline.arrRef spec0 5) (((cfg0.win 5).blk t).view.emb (fun a => j a.succ))) (V c (Pipeline.arrRef spec0 6) (((cfg0.win 6).blk t).view.emb (fun a => j a.succ)))
      (V c (Pipeline.arrRef spec0 0) (((cfg0.win 0).blk t).view.emb j)) (V c (Pipeline.arrRef spec0 2) (((cfg0.win 2).blk t).view.emb j)) = _
  rw [emb5, emb6, emb0, emb2]
  rfl

/-- Likewise the z part. -/
theorem point9 (c : Dev nD) (t : Fin cfg0.N) (j : S1x200x1000.Idx) :
    k0_pay1 (F := Ideal) (iblk0 V c 7 t) (iblk0 V c 3 t) (k0_pay4 (iblk0 V c 5 t) (iblk0 V c 1 t)) (k0_pay5 (iblk0 V c 7 t)) j
      = pNew (V c (Pipeline.arrRef spec0 5)) (V c (Pipeline.arrRef spec0 7)) (V c (Pipeline.arrRef spec0 1)) (V c (Pipeline.arrRef spec0 3)) (at8 t j) := by
  refine (partZ_apply (iblk0 V c 7 t) (iblk0 V c 5 t) (iblk0 V c 1 t) (iblk0 V c 3 t) j).trans ?_
  show pUpd (V c (Pipeline.arrRef spec0 5) (((cfg0.win 5).blk t).view.emb (fun a => j a.succ))) (V c (Pipeline.arrRef spec0 7) (((cfg0.win 7).blk t).view.emb (fun a => j a.succ)))
      (V c (Pipeline.arrRef spec0 1) (((cfg0.win 1).blk t).view.emb j)) (V c (Pipeline.arrRef spec0 3) (((cfg0.win 3).blk t).view.emb j)) = _
  rw [emb5, emb7, emb1, emb3]
  rfl

/-- Likewise the total. -/
theorem point10 (c : Dev nD) (t : Fin cfg0.N) (j : S1x200x1000.Idx) :
    k0_pay2 (F := Ideal) (iblk0 V c 7 t) (iblk0 V c 3 t) (iblk0 V c 4 t) (k0_pay3 (iblk0 V c 6 t) (iblk0 V c 5 t) (iblk0 V c 0 t) (iblk0 V c 2 t))
        (k0_pay4 (iblk0 V c 5 t) (iblk0 V c 1 t)) (k0_pay5 (iblk0 V c 7 t)) j
      = pTot (V c (Pipeline.arrRef spec0 5)) (V c (Pipeline.arrRef spec0 6)) (V c (Pipeline.arrRef spec0 7)) (V c (Pipeline.arrRef spec0 0))
          (V c (Pipeline.arrRef spec0 1)) (V c (Pipeline.arrRef spec0 2)) (V c (Pipeline.arrRef spec0 3)) (V c (Pipeline.arrRef spec0 4)) (at8 t j) := by
  refine (total_apply (iblk0 V c 6 t) (iblk0 V c 7 t) (iblk0 V c 5 t) (iblk0 V c 0 t) (iblk0 V c 1 t) (iblk0 V c 2 t) (iblk0 V c 3 t) (iblk0 V c 4 t) j).trans ?_
  show tot3 (pUpd (V c (Pipeline.arrRef spec0 5) (((cfg0.win 5).blk t).view.emb (fun a => j a.succ))) (V c (Pipeline.arrRef spec0 6) (((cfg0.win 6).blk t).view.emb (fun a => j a.succ)))
        (V c (Pipeline.arrRef spec0 0) (((cfg0.win 0).blk t).view.emb j)) (V c (Pipeline.arrRef spec0 2) (((cfg0.win 2).blk t).view.emb j)))
      (pUpd (V c (Pipeline.arrRef spec0 5) (((cfg0.win 5).blk t).view.emb (fun a => j a.succ))) (V c (Pipeline.arrRef spec0 7) (((cfg0.win 7).blk t).view.emb (fun a => j a.succ)))
        (V c (Pipeline.arrRef spec0 1) (((cfg0.win 1).blk t).view.emb j)) (V c (Pipeline.arrRef spec0 3) (((cfg0.win 3).blk t).view.emb j)))
      (V c (Pipeline.arrRef spec0 4) (((cfg0.win 4).blk t).view.emb j)) = _
  rw [emb5, emb6, emb7, emb0, emb1, emb2, emb3, emb4]
  rfl

/-- Through window 8 point `t` writes back block `t` of the pressure's x part, as a function of the arrays the region finds. -/
theorem flushed8_eq (c : Dev nD) (t : Fin cfg0.N) :
    (dat0 V c).flushed 8 t = ((cfg0.win 8).blk t).view.read (Elt Ideal)
      (pNew (V c (Pipeline.arrRef spec0 5)) (V c (Pipeline.arrRef spec0 6)) (V c (Pipeline.arrRef spec0 0)) (V c (Pipeline.arrRef spec0 2))) := by
  show (cfg0.win 8).cut (grid0.coords t) ((dat0 V c).after 8 t) = _
  rw [after0_8]
  unfold out0_8
  rw [View.canon_unit_zero hz3]
  simp only [View.ld_unit_zero (S := S1x200x1000) hz3, View.ld_unit_zero (S := S200x1000) hz2]
  funext j
  exact point8 V c t j

/-- Through window 9 point `t` writes back block `t` of the pressure's z part. -/
theorem flushed9_eq (c : Dev nD) (t : Fin cfg0.N) :
    (dat0 V c).flushed 9 t = ((cfg0.win 9).blk t).view.read (Elt Ideal)
      (pNew (V c (Pipeline.arrRef spec0 5)) (V c (Pipeline.arrRef spec0 7)) (V c (Pipeline.arrRef spec0 1)) (V c (Pipeline.arrRef spec0 3))) := by
  show (cfg0.win 9).cut (grid0.coords t) ((dat0 V c).after 9 t) = _
  rw [after0_9]
  unfold out0_9
  rw [View.canon_unit_zero hz3]
  simp only [View.ld_unit_zero (S := S1x200x1000) hz3, View.ld_unit_zero (S := S200x1000) hz2]
  funext j
  refine (point9 V c t j).trans ?_
  show pNew _ _ _ _ (at8 t j) = pNew _ _ _ _ (((cfg0.win 9).blk t).view.emb j)
  rw [emb9]

/-- Through window 10 point `t` writes back block `t` of the total pressure. -/
theorem flushed10_eq (c : Dev nD) (t : Fin cfg0.N) :
    (dat0 V c).flushed 10 t = ((cfg0.win 10).blk t).view.read (Elt Ideal)
      (pTot (V c (Pipeline.arrRef spec0 5)) (V c (Pipeline.arrRef spec0 6)) (V c (Pipeline.arrRef spec0 7)) (V c (Pipeline.arrRef spec0 0))
        (V c (Pipeline.arrRef spec0 1)) (V c (Pipeline.arrRef spec0 2)) (V c (Pipeline.arrRef spec0 3)) (V c (Pipeline.arrRef spec0 4))) := by
  show (cfg0.win 10).cut (grid0.coords t) ((dat0 V c).after 10 t) = _
  rw [after0_10]
  unfold out0_10
  rw [View.canon_unit_zero hz3]
  simp only [View.ld_unit_zero (S := S1x200x1000) hz3, View.ld_unit_zero (S := S200x1000) hz2]
  funext j
  refine (point10 V c t j).trans ?_
  show pTot _ _ _ _ _ _ _ _ (at8 t j) = pTot _ _ _ _ _ _ _ _ (((cfg0.win 10).blk t).view.emb j)
  rw [emb10]

/-! ## The blocks tile the grid -/

/-- The grid point `(s, r, q)` lies in the block at shot `s`, row band `r / 200`, the one column band. -/
theorem in_band (ix : Fin 3 → Nat) (i : S16x1000x1000.Idx) (q0 : ix 0 = (i 0).val) (q1 : ix 1 = (i 1).val / 200) (q2 : ix 2 = 0) :
    ∀ a : Fin 3, ix a * S1x200x1000.size a ≤ (i a).val ∧ (i a).val < ix a * S1x200x1000.size a + S1x200x1000.size a := by
  have hi1 : (i 1).val < 1000 := (i 1).isLt
  have hi2 : (i 2).val < 1000 := (i 2).isLt
  intro a
  match a with
  | ⟨0, _⟩ => show ix 0 * 1 ≤ (i 0).val ∧ (i 0).val < ix 0 * 1 + 1; omega
  | ⟨1, _⟩ => show ix 1 * 200 ≤ (i 1).val ∧ (i 1).val < ix 1 * 200 + 200; omega
  | ⟨2, _⟩ => show ix 2 * 1000 ≤ (i 2).val ∧ (i 2).val < ix 2 * 1000 + 1000; omega

/-- Some grid point's block position is the band of `i`. -/
theorem band_point (i : S16x1000x1000.Idx) : ∃ t : Fin cfg0.N,
    win0_8.index t (0 : Fin 3) = (i 0).val ∧ win0_8.index t (1 : Fin 3) = (i 1).val / 200 ∧ win0_8.index t (2 : Fin 3) = 0 := by
  have hi0 : (i 0).val < 16 := (i 0).isLt
  have hi1 : (i 1).val < 1000 := (i 1).isLt
  obtain ⟨t, ht⟩ := onto ⟨(i 0).val, hi0⟩ ⟨(i 1).val / 200, by omega⟩
  exact ⟨t, congrFun ht 0, congrFun ht 1, congrFun ht 2⟩

theorem mem_blk8 (t : Fin cfg0.N) (i : S16x1000x1000.Idx) :
    i ∈ ((cfg0.win 8).blk t).view.set ↔ ∀ a : Fin 3, win0_8.index t a * S1x200x1000.size a ≤ (i a).val ∧ (i a).val < win0_8.index t a * S1x200x1000.size a + S1x200x1000.size a := by
  show i ∈ ((View.whole main_v12_0).slice (win0_8.rect t)).set ↔ _
  rw [View.set_slice_whole, Rect.mem_set_unit]
  exact Iff.rfl

theorem mem_blk9 (t : Fin cfg0.N) (i : S16x1000x1000.Idx) :
    i ∈ ((cfg0.win 9).blk t).view.set ↔ ∀ a : Fin 3, win0_9.index t a * S1x200x1000.size a ≤ (i a).val ∧ (i a).val < win0_9.index t a * S1x200x1000.size a + S1x200x1000.size a := by
  show i ∈ ((View.whole main_v12_1).slice (win0_9.rect t)).set ↔ _
  rw [View.set_slice_whole, Rect.mem_set_unit]
  exact Iff.rfl

theorem mem_blk10 (t : Fin cfg0.N) (i : S16x1000x1000.Idx) :
    i ∈ ((cfg0.win 10).blk t).view.set ↔ ∀ a : Fin 3, win0_10.index t a * S1x200x1000.size a ≤ (i a).val ∧ (i a).val < win0_10.index t a * S1x200x1000.size a + S1x200x1000.size a := by
  show i ∈ ((View.whole main_v12_2).slice (win0_10.rect t)).set ↔ _
  rw [View.set_slice_whole, Rect.mem_set_unit]
  exact Iff.rfl

theorem cover8 (i : S16x1000x1000.Idx) : ∃ t : Fin cfg0.N, (cfg0.win 8).flush t = true ∧ i ∈ ((cfg0.win 8).blk t).view.set := by
  obtain ⟨t, q0, q1, q2⟩ := band_point i
  refine ⟨t, flush0_8 t, ?_⟩
  rw [mem_blk8]
  exact in_band _ i q0 q1 q2

theorem cover9 (i : S16x1000x1000.Idx) : ∃ t : Fin cfg0.N, (cfg0.win 9).flush t = true ∧ i ∈ ((cfg0.win 9).blk t).view.set := by
  obtain ⟨t, q0, q1, q2⟩ := band_point i
  obtain ⟨-, -, -, -, -, ⟨e0, e1, e2⟩, -⟩ := places t
  refine ⟨t, flush0_9 t, ?_⟩
  rw [mem_blk9]
  exact in_band _ i (e0.trans q0) (e1.trans q1) (e2.trans q2)

theorem cover10 (i : S16x1000x1000.Idx) : ∃ t : Fin cfg0.N, (cfg0.win 10).flush t = true ∧ i ∈ ((cfg0.win 10).blk t).view.set := by
  obtain ⟨t, q0, q1, q2⟩ := band_point i
  obtain ⟨-, -, -, -, -, -, ⟨e0, e1, e2⟩, -⟩ := places t
  refine ⟨t, flush0_10 t, ?_⟩
  rw [mem_blk10]
  exact in_band _ i (e0.trans q0) (e1.trans q1) (e2.trans q2)

/-! ## The three arrays after the region -/

/-- The pressure's x part after the region, of the arrays the region finds. -/
theorem final8 (c : Dev nD) : (dat0 V c).arrAt 8 cfg0.N
    = pNew (V c (Pipeline.arrRef spec0 5)) (V c (Pipeline.arrRef spec0 6)) (V c (Pipeline.arrRef spec0 0)) (V c (Pipeline.arrRef spec0 2)) :=
  (dat0 V c).arrAt_eq_of_cover 8 _ (fun t _ => flushed8_eq V c t) cover8

/-- The pressure's z part after the region. -/
theorem final9 (c : Dev nD) : (dat0 V c).arrAt 9 cfg0.N
    = pNew (V c (Pipeline.arrRef spec0 5)) (V c (Pipeline.arrRef spec0 7)) (V c (Pipeline.arrRef spec0 1)) (V c (Pipeline.arrRef spec0 3)) :=
  (dat0 V c).arrAt_eq_of_cover 9 _ (fun t _ => flushed9_eq V c t) cover9

/-- The total pressure after the region. -/
theorem final10 (c : Dev nD) : (dat0 V c).arrAt 10 cfg0.N
    = pTot (V c (Pipeline.arrRef spec0 5)) (V c (Pipeline.arrRef spec0 6)) (V c (Pipeline.arrRef spec0 7)) (V c (Pipeline.arrRef spec0 0))
        (V c (Pipeline.arrRef spec0 1)) (V c (Pipeline.arrRef spec0 2)) (V c (Pipeline.arrRef spec0 3)) (V c (Pipeline.arrRef spec0 4)) :=
  (dat0 V c).arrAt_eq_of_cover 10 _ (fun t _ => flushed10_eq V c t) cover10

end Cert.KernelIdeal.PressureRegion

end
-- ==== Proof.StaggerX.lean ====
/-
  The second region: the x-staggered field after the step, one shot per grid point.

  At shot `s` the region holds the whole [1, 998, 999] plane of the old field, the whole [1, 1000, 1000] plane of the NEW
  total pressure and the whole [998, 999] damping plane, and writes the [1, 998, 999] plane of the new field. At the
  block point `(0, r, q)` the body takes the pressure plane at `(0, r+1, q+1)` and `(0, r+1, q)` (two slices one column
  apart), divides their difference by the spacing, and applies the point update `aUpd`. A block point of shot `s` is
  the grid point `(s, r, q)`, its two pressure neighbours in the block are its east and west neighbours in the grid,
  and the damping plane is read under it; the sixteen blocks tile the array, so after the region the output array is
  `axNew` of the arrays the region finds.
-/
import proofs.«424261_j37804302139960_3_alg».proof.Proof.Gen.KernelIdeal.Frame
import proofs.«424261_j37804302139960_3_alg».proof.Proof.Stencil
import Idealize.ShloMosaic.Lib.Pipeline.Value
import Idealize.ShloMosaic.Lib.ValueIdx

set_option maxRecDepth 16384

noncomputable section

namespace Cert.KernelIdeal.StaggerX

open Cert.KernelIdeal Cert.KernelIdeal.Gen Cert.Stencil
open Idealize.ShloMosaic Idealize.ShloMosaic.ValueIdx Idealize.ShloMosaic.TcCoe
open Idealize.ShloMosaic.Pipeline (Dat Cfg Window)

-- The buffers' contents when the region is entered: a parameter, as in the frame the values are read off.
variable (V : (c : Dev nD) → (b : Ref sig .tc) → Buf (Elt Ideal) ((c : Thread nD τ).loc b))

theorem hz3 : (![0, 0, 0] : Fin 3 → Nat) = fun _ => 0 := funext fun a => by fin_cases a <;> rfl
theorem hz2 : (![0, 0] : Fin 2 → Nat) = fun _ => 0 := funext fun a => by fin_cases a <;> rfl

/-! ## The body's value at a block point -/

/-- Inside one shot's planes: the pressure points east and west of the staggered point `y`. -/
abbrev eastB (y : S1x998x999.Idx) : S1x1000x1000.Idx := fun a => match a with
  | ⟨0, _⟩ => ⟨(y 0).val, (y 0).isLt⟩
  | ⟨1, _⟩ => ⟨1 + (y 1).val, by have h : (y 1).val < 998 := (y 1).isLt; show 1 + (y 1).val < 1000; omega⟩
  | ⟨2, _⟩ => ⟨1 + (y 2).val, by have h : (y 2).val < 999 := (y 2).isLt; show 1 + (y 2).val < 1000; omega⟩
abbrev westB (y : S1x998x999.Idx) : S1x1000x1000.Idx := fun a => match a with
  | ⟨0, _⟩ => ⟨(y 0).val, (y 0).isLt⟩
  | ⟨1, _⟩ => ⟨1 + (y 1).val, by have h : (y 1).val < 998 := (y 1).isLt; show 1 + (y 1).val < 1000; omega⟩
  | ⟨2, _⟩ => ⟨(y 2).val, by have h : (y 2).val < 999 := (y 2).isLt; show (y 2).val < 1000; omega⟩

/-- The slice of the pressure plane offset by one row and one column, read at `y`, is the plane at `y`'s east point. -/
theorem east_read (p : FVec Ideal S1x1000x1000 .f32) (y : S1x998x999.Idx) :
    extractStridedSlice S1x998x999 ![0, 1, 1] p slices_S1x1000x1000_o0_1_1_S1x998x999 y = p (eastB y) :=
  extractStridedSlice_apply ![0, 1, 1] p slices_S1x1000x1000_o0_1_1_S1x998x999 y (eastB y) (fun a => match a with
    | ⟨0, _⟩ => by show (y 0).val = 0 + (y 0).val; omega
    | ⟨1, _⟩ => by show 1 + (y 1).val = 1 + (y 1).val; omega
    | ⟨2, _⟩ => by show 1 + (y 2).val = 1 + (y 2).val; omega)

/-- The slice offset by one row only is the plane at `y`'s west point. -/
theorem west_read (p : FVec Ideal S1x1000x1000 .f32) (y : S1x998x999.Idx) :
    extractStridedSlice S1x998x999 ![0, 1, 0] p slices_S1x1000x1000_o0_1_0_S1x998x999 y = p (westB y) :=
  extractStridedSlice_apply ![0, 1, 0] p slices_S1x1000x1000_o0_1_0_S1x998x999 y (westB y) (fun a => match a with
    | ⟨0, _⟩ => by show (y 0).val = 0 + (y 0).val; omega
    | ⟨1, _⟩ => by show 1 + (y 1).val = 1 + (y 1).val; omega
    | ⟨2, _⟩ => by show (y 2).val = 0 + (y 2).val; omega)

/-- The body's value at the block point `y`: the point update of the damping under `y`, the old field at `y` and the
    pressure's difference across `y` over the spacing. -/
theorem pay_apply (ax : Vec Ideal S1x998x999 .f32) (p : Vec Ideal S1x1000x1000 .f32) (sg : Vec Ideal S998x999 .f32) (y : S1x998x999.Idx) :
    k1_pay1 (F := Ideal) ax p sg y = aUpd (sg (fun a => y a.succ)) (ax y) (grad (p (eastB y)) (p (westB y))) := by
  unfold k1_pay1
  simp only [divf_apply, addf_apply, mulf_apply, subf_apply, shapeCast_self, shapeCast_addUnit_apply, broadcast_apply, east_read, west_read]
  rfl

/-! ## Where the blocks sit -/

/-- The printed index maps, decided over the 16 grid points: the field's, the pressure's and the output's block of point
    `t` is shot `t`'s whole plane, and the damping plane's block is the whole plane. -/
theorem places : ∀ t : Fin cfg1.N,
    win1_0.index t (0 : Fin 3) = win1_3.index t (0 : Fin 3) ∧ win1_0.index t (1 : Fin 3) = 0 ∧ win1_0.index t (2 : Fin 3) = 0
    ∧ win1_1.index t (0 : Fin 3) = win1_3.index t (0 : Fin 3) ∧ win1_1.index t (1 : Fin 3) = 0 ∧ win1_1.index t (2 : Fin 3) = 0
    ∧ win1_2.index t (0 : Fin 2) = 0 ∧ win1_2.index t (1 : Fin 2) = 0
    ∧ win1_3.index t (1 : Fin 3) = 0 ∧ win1_3.index t (2 : Fin 3) = 0 :=
  (by decide +kernel : ∀ t : Fin grid1.N, _)

/-- Every shot is some grid point's block position. -/
theorem onto : ∀ q0 : Fin 16, ∃ t : Fin cfg1.N, win1_3.index t = ![q0.val, 0, 0] :=
  (by decide +kernel : ∀ q0 : Fin 16, ∃ t : Fin grid1.N, win1_3.index t = ![q0.val, 0, 0])

/-- The output's block of point `t` as a map from block points to points of the staggered grid. -/
abbrev at3 (t : Fin cfg1.N) (j : S1x998x999.Idx) : S16x998x999.Idx := ((cfg1.win 3).blk t).view.emb j

theorem emb0 (t : Fin cfg1.N) (j : S1x998x999.Idx) : ((cfg1.win 0).blk t).view.emb j = at3 t j := by
  obtain ⟨e0, e1, e2, -, -, -, -, -, o1, o2⟩ := places t
  funext a; apply Fin.ext
  match a with
  | ⟨0, _⟩ => show win1_0.index t (0 : Fin 3) * 1 + 1 * (j 0).val = win1_3.index t (0 : Fin 3) * 1 + 1 * (j 0).val; omega
  | ⟨1, _⟩ => show win1_0.index t (1 : Fin 3) * 998 + 1 * (j 1).val = win1_3.index t (1 : Fin 3) * 998 + 1 * (j 1).val; omega
  | ⟨2, _⟩ => show win1_0.index t (2 : Fin 3) * 999 + 1 * (j 2).val = win1_3.index t (2 : Fin 3) * 999 + 1 * (j 2).val; omega

theorem emb2 (t : Fin cfg1.N) (j : S1x998x999.Idx) : ((cfg1.win 2).blk t).view.emb (fun a => j a.succ) = underX (at3 t j) := by
  obtain ⟨-, -, -, -, -, -, s0, s1, o1, o2⟩ := places t
  funext a; apply Fin.ext
  match a with
  | ⟨0, _⟩ => show win1_2.index t (0 : Fin 2) * 998 + 1 * (j 1).val = win1_3.index t (1 : Fin 3) * 998 + 1 * (j 1).val; omega
  | ⟨1, _⟩ => show win1_2.index t (1 : Fin 2) * 999 + 1 * (j 2).val = win1_3.index t (2 : Fin 3) * 999 + 1 * (j 2).val; omega

theorem emb1_east (t : Fin cfg1.N) (j : S1x998x999.Idx) : ((cfg1.win 1).blk t).view.emb (eastB j) = east (at3 t j) := by
  obtain ⟨-, -, -, p0, p1, p2, -, -, o1, o2⟩ := places t
  funext a; apply Fin.ext
  match a with
  | ⟨0, _⟩ => show win1_1.index t (0 : Fin 3) * 1 + 1 * (j 0).val = win1_3.index t (0 : Fin 3) * 1 + 1 * (j 0).val; omega
  | ⟨1, _⟩ => show win1_1.index t (1 : Fin 3) * 1000 + 1 * (1 + (j 1).val) = 1 + (win1_3.index t (1 : Fin 3) * 998 + 1 * (j 1).val); omega
  | ⟨2, _⟩ => show win1_1.index t (2 : Fin 3) * 1000 + 1 * (1 + (j 2).val) = 1 + (win1_3.index t (2 : Fin 3) * 999 + 1 * (j 2).val); omega

theorem emb1_west (t : Fin cfg1.N) (j : S1x998x999.Idx) : ((cfg1.win 1).blk t).view.emb (westB j) = west (at3 t j) := by
  obtain ⟨-, -, -, p0, p1, p2, -, -, o1, o2⟩ := places t
  funext a; apply Fin.ext
  match a with
  | ⟨0, _⟩ => show win1_1.index t (0 : Fin 3) * 1 + 1 * (j 0).val = win1_3.index t (0 : Fin 3) * 1 + 1 * (j 0).val; omega
  | ⟨1, _⟩ => show win1_1.index t (1 : Fin 3) * 1000 + 1 * (1 + (j 1).val) = 1 + (win1_3.index t (1 : Fin 3) * 998 + 1 * (j 1).val); omega
  | ⟨2, _⟩ => show win1_1.index t (2 : Fin 3) * 1000 + 1 * (j 2).val = win1_3.index t (2 : Fin 3) * 999 + 1 * (j 2).val; omega

/-! ## What a grid point writes back, and the array after the region -/

/-- At a block point of point `t`, the body's value is the new field at the point's place in the staggered grid. -/
theorem point3 (c : Dev nD) (t : Fin cfg1.N) (j : S1x998x999.Idx) :
    k1_pay1 (F := Ideal) (iblk1 V c 0 t) (iblk1 V c 1 t) (iblk1 V c 2 t) j
      = axNew (V c (Pipeline.arrRef spec1 2)) (V c (Pipeline.arrRef spec1 0)) (V c (Pipeline.arrRef spec1 1)) (at3 t j) := by
  refine (pay_apply (iblk1 V c 0 t) (iblk1 V c 1 t) (iblk1 V c 2 t) j).trans ?_
  show aUpd (V c (Pipeline.arrRef spec1 2) (((cfg1.win 2).blk t).view.emb (fun a => j a.succ))) (V c (Pipeline.arrRef spec1 0) (((cfg1.win 0).blk t).view.emb j))
      (grad (V c (Pipeline.arrRef spec1 1) (((cfg1.win 1).blk t).view.emb (eastB j))) (V c (Pipeline.arrRef spec1 1) (((cfg1.win 1).blk t).view.emb (westB j)))) = _
  rw [emb2, emb0, emb1_east, emb1_west]
  rfl

/-- Point `t` writes back block `t` of the new x-staggered field, as a function of the arrays the region finds. -/
theorem flushed3_eq (c : Dev nD) (t : Fin cfg1.N) :
    (dat1 V c).flushed 3 t = ((cfg1.win 3).blk t).view.read (Elt Ideal)
      (axNew (V c (Pipeline.arrRef spec1 2)) (V c (Pipeline.arrRef spec1 0)) (V c (Pipeline.arrRef spec1 1))) := by
  show (cfg1.win 3).cut (grid1.coords t) ((dat1 V c).after 3 t) = _
  rw [after1_3]
  unfold out1_3
  rw [View.canon_unit_zero hz3]
  simp only [View.ld_unit_zero (S := S1x998x999) hz3, View.ld_unit_zero (S := S1x1000x1000) hz3, View.ld_unit_zero (S := S998x999) hz2]
  funext j
  exact point3 V c t j

theorem mem_blk3 (t : Fin cfg1.N) (i : S16x998x999.Idx) :
    i ∈ ((cfg1.win 3).blk t).view.set ↔ ∀ a : Fin 3, win1_3.index t a * S1x998x999.size a ≤ (i a).val ∧ (i a).val < win1_3.index t a * S1x998x999.size a + S1x998x999.size a := by
  show i ∈ ((View.whole main_v13).slice (win1_3.rect t)).set ↔ _
  rw [View.set_slice_whole, Rect.mem_set_unit]
  exact Iff.rfl

/-- The sixteen one-shot blocks tile the array: `(s, r, q)` is in shot `s`'s. -/
theorem cover3 (i : S16x998x999.Idx) : ∃ t : Fin cfg1.N, (cfg1.win 3).flush t = true ∧ i ∈ ((cfg1.win 3).blk t).view.set := by
  have hi0 : (i 0).val < 16 := (i 0).isLt
  have hi1 : (i 1).val < 998 := (i 1).isLt
  have hi2 : (i 2).val < 999 := (i 2).isLt
  obtain ⟨t, ht⟩ := onto ⟨(i 0).val, hi0⟩
  have q0 : win1_3.index t (0 : Fin 3) = (i 0).val := congrFun ht 0
  have q1 : win1_3.index t (1 : Fin 3) = 0 := congrFun ht 1
  have q2 : win1_3.index t (2 : Fin 3) = 0 := congrFun ht 2
  refine ⟨t, flush1_3 t, ?_⟩
  rw [mem_blk3]
  intro a
  match a with
  | ⟨0, _⟩ => show win1_3.index t (0 : Fin 3) * 1 ≤ (i 0).val ∧ (i 0).val < win1_3.index t (0 : Fin 3) * 1 + 1; omega
  | ⟨1, _⟩ => show win1_3.index t (1 : Fin 3) * 998 ≤ (i 1).val ∧ (i 1).val < win1_3.index t (1 : Fin 3) * 998 + 998; omega
  | ⟨2, _⟩ => show win1_3.index t (2 : Fin 3) * 999 ≤ (i 2).val ∧ (i 2).val < win1_3.index t (2 : Fin 3) * 999 + 999; omega

/-- THE ARRAY after the region: the new x-staggered field, of the arrays the region finds. -/
theorem final3 (c : Dev nD) : (dat1 V c).arrAt 3 cfg1.N
    = axNew (V c (Pipeline.arrRef spec1 2)) (V c (Pipeline.arrRef spec1 0)) (V c (Pipeline.arrRef spec1 1)) :=
  (dat1 V c).arrAt_eq_of_cover 3 _ (fun t _ => flushed3_eq V c t) cover3

end Cert.KernelIdeal.StaggerX

end
-- ==== Proof.StaggerZ.lean ====
/-
  The third region: the z-staggered field after the step, one shot per grid point.

  At shot `s` the region holds the whole [1, 999, 998] plane of the old field, the whole [1, 1000, 1000] plane of the NEW
  total pressure and the whole [999, 998] damping plane, and writes the [1, 999, 998] plane of the new field. At the
  block point `(0, r, q)` the body takes the pressure plane at `(0, r+1, q+1)` and `(0, r, q+1)` (two slices one row
  apart), divides their difference by the spacing, and applies the point update `aUpd`. A block point of shot `s` is
  the grid point `(s, r, q)`, its two pressure neighbours in the block are its south and north neighbours in the
  grid, and the damping plane is read under it; the sixteen blocks tile the array, so after the region the output
  array is `azNew` of the arrays the region finds.
-/
import proofs.«424261_j37804302139960_3_alg».proof.Proof.Gen.KernelIdeal.Frame
import proofs.«424261_j37804302139960_3_alg».proof.Proof.Stencil
import Idealize.ShloMosaic.Lib.Pipeline.Value
import Idealize.ShloMosaic.Lib.ValueIdx

set_option maxRecDepth 16384

noncomputable section

namespace Cert.KernelIdeal.StaggerZ

open Cert.KernelIdeal Cert.KernelIdeal.Gen Cert.Stencil
open Idealize.ShloMosaic Idealize.ShloMosaic.ValueIdx Idealize.ShloMosaic.TcCoe
open Idealize.ShloMosaic.Pipeline (Dat Cfg Window)

-- The buffers' contents when the region is entered: a parameter, as in the frame the values are read off.
variable (V : (c : Dev nD) → (b : Ref sig .tc) → Buf (Elt Ideal) ((c : Thread nD τ).loc b))

theorem hz3 : (![0, 0, 0] : Fin 3 → Nat) = fun _ => 0 := funext fun a => by fin_cases a <;> rfl
theorem hz2 : (![0, 0] : Fin 2 → Nat) = fun _ => 0 := funext fun a => by fin_cases a <;> rfl

/-! ## The body's value at a block point -/

/-- Inside one shot's planes: the pressure points south and north of the staggered point `y`. -/
abbrev southB (y : S1x999x998.Idx) : S1x1000x1000.Idx := fun a => match a with
  | ⟨0, _⟩ => ⟨(y 0).val, (y 0).isLt⟩
  | ⟨1, _⟩ => ⟨1 + (y 1).val, by have h : (y 1).val < 999 := (y 1).isLt; show 1 + (y 1).val < 1000; omega⟩
  | ⟨2, _⟩ => ⟨1 + (y 2).val, by have h : (y 2).val < 998 := (y 2).isLt; show 1 + (y 2).val < 1000; omega⟩
abbrev northB (y : S1x999x998.Idx) : S1x1000x1000.Idx := fun a => match a with
  | ⟨0, _⟩ => ⟨(y 0).val, (y 0).isLt⟩
  | ⟨1, _⟩ => ⟨(y 1).val, by have h : (y 1).val < 999 := (y 1).isLt; show (y 1).val < 1000; omega⟩
  | ⟨2, _⟩ => ⟨1 + (y 2).val, by have h : (y 2).val < 998 := (y 2).isLt; show 1 + (y 2).val < 1000; omega⟩

/-- The slice of the pressure plane offset by one row and one column, read at `y`, is the plane at `y`'s south point. -/
theorem south_read (p : FVec Ideal S1x1000x1000 .f32) (y : S1x999x998.Idx) :
    extractStridedSlice S1x999x998 ![0, 1, 1] p slices_S1x1000x1000_o0_1_1_S1x999x998 y = p (southB y) :=
  extractStridedSlice_apply ![0, 1, 1] p slices_S1x1000x1000_o0_1_1_S1x999x998 y (southB y) (fun a => match a with
    | ⟨0, _⟩ => by show (y 0).val = 0 + (y 0).val; omega
    | ⟨1, _⟩ => by show 1 + (y 1).val = 1 + (y 1).val; omega
    | ⟨2, _⟩ => by show 1 + (y 2).val = 1 + (y 2).val; omega)

/-- The slice offset by one column only is the plane at `y`'s north point. -/
theorem north_read (p : FVec Ideal S1x1000x1000 .f32) (y : S1x999x998.Idx) :
    extractStridedSlice S1x999x998 ![0, 0, 1] p slices_S1x1000x1000_o0_0_1_S1x999x998 y = p (northB y) :=
  extractStridedSlice_apply ![0, 0, 1] p slices_S1x1000x1000_o0_0_1_S1x999x998 y (northB y) (fun a => match a with
    | ⟨0, _⟩ => by show (y 0).val = 0 + (y 0).val; omega
    | ⟨1, _⟩ => by show (y 1).val = 0 + (y 1).val; omega
    | ⟨2, _⟩ => by show 1 + (y 2).val = 1 + (y 2).val; omega)

/-- The body's value at the block point `y`: the point update of the damping under `y`, the old field at `y` and the
    pressure's difference across `y` over the spacing. -/
theorem pay_apply (az : Vec Ideal S1x999x998 .f32) (p : Vec Ideal S1x1000x1000 .f32) (sg : Vec Ideal S999x998 .f32) (y : S1x999x998.Idx) :
    k2_pay1 (F := Ideal) az p sg y = aUpd (sg (fun a => y a.succ)) (az y) (grad (p (southB y)) (p (northB y))) := by
  unfold k2_pay1
  simp only [divf_apply, addf_apply, mulf_apply, subf_apply, shapeCast_self, shapeCast_addUnit_apply, broadcast_apply, south_read, north_read]
  rfl

/-! ## Where the blocks sit -/

/-- The printed index maps, decided over the 16 grid points: the field's, the pressure's and the output's block of point
    `t` is shot `t`'s whole plane, and the damping plane's block is the whole plane. -/
theorem places : ∀ t : Fin cfg2.N,
    win2_0.index t (0 : Fin 3) = win2_3.index t (0 : Fin 3) ∧ win2_0.index t (1 : Fin 3) = 0 ∧ win2_0.index t (2 : Fin 3) = 0
    ∧ win2_1.index t (0 : Fin 3) = win2_3.index t (0 : Fin 3) ∧ win2_1.index t (1 : Fin 3) = 0 ∧ win2_1.index t (2 : Fin 3) = 0
    ∧ win2_2.index t (0 : Fin 2) = 0 ∧ win2_2.index t (1 : Fin 2) = 0
    ∧ win2_3.index t (1 : Fin 3) = 0 ∧ win2_3.index t (2 : Fin 3) = 0 :=
  (by decide +kernel : ∀ t : Fin grid2.N, _)

/-- Every shot is some grid point's block position. -/
theorem onto : ∀ q0 : Fin 16, ∃ t : Fin cfg2.N, win2_3.index t = ![q0.val, 0, 0] :=
  (by decide +kernel : ∀ q0 : Fin 16, ∃ t : Fin grid2.N, win2_3.index t = ![q0.val, 0, 0])

/-- The output's block of point `t` as a map from block points to points of the staggered grid. -/
abbrev at3 (t : Fin cfg2.N) (j : S1x999x998.Idx) : S16x999x998.Idx := ((cfg2.win 3).blk t).view.emb j

theorem emb0 (t : Fin cfg2.N) (j : S1x999x998.Idx) : ((cfg2.win 0).blk t).view.emb j = at3 t j := by
  obtain ⟨e0, e1, e2, -, -, -, -, -, o1, o2⟩ := places t
  funext a; apply Fin.ext
  match a with
  | ⟨0, _⟩ => show win2_0.index t (0 : Fin 3) * 1 + 1 * (j 0).val = win2_3.index t (0 : Fin 3) * 1 + 1 * (j 0).val; omega
  | ⟨1, _⟩ => show win2_0.index t (1 : Fin 3) * 999 + 1 * (j 1).val = win2_3.index t (1 : Fin 3) * 999 + 1 * (j 1).val; omega
  | ⟨2, _⟩ => show win2_0.index t (2 : Fin 3) * 998 + 1 * (j 2).val = win2_3.index t (2 : Fin 3) * 998 + 1 * (j 2).val; omega

theorem emb2 (t : Fin cfg2.N) (j : S1x999x998.Idx) : ((cfg2.win 2).blk t).view.emb (fun a => j a.succ) = underZ (at3 t j) := by
  obtain ⟨-, -, -, -, -, -, s0, s1, o1, o2⟩ := places t
  funext a; apply Fin.ext
  match a with
  | ⟨0, _⟩ => show win2_2.index t (0 : Fin 2) * 999 + 1 * (j 1).val = win2_3.index t (1 : Fin 3) * 999 + 1 * (j 1).val; omega
  | ⟨1, _⟩ => show win2_2.index t (1 : Fin 2) * 998 + 1 * (j 2).val = win2_3.index t (2 : Fin 3) * 998 + 1 * (j 2).val; omega

theorem emb1_south (t : Fin cfg2.N) (j : S1x999x998.Idx) : ((cfg2.win 1).blk t).view.emb (southB j) = south (at3 t j) := by
  obtain ⟨-, -, -, p0, p1, p2, -, -, o1, o2⟩ := places t
  funext a; apply Fin.ext
  match a with
  | ⟨0, _⟩ => show win2_1.index t (0 : Fin 3) * 1 + 1 * (j 0).val = win2_3.index t (0 : Fin 3) * 1 + 1 * (j 0).val; omega
  | ⟨1, _⟩ => show win2_1.index t (1 : Fin 3) * 1000 + 1 * (1 + (j 1).val) = 1 + (win2_3.index t (1 : Fin 3) * 999 + 1 * (j 1).val); omega
  | ⟨2, _⟩ => show win2_1.index t (2 : Fin 3) * 1000 + 1 * (1 + (j 2).val) = 1 + (win2_3.index t (2 : Fin 3) * 998 + 1 * (j 2).val); omega

theorem emb1_north (t : Fin cfg2.N) (j : S1x999x998.Idx) : ((cfg2.win 1).blk t).view.emb (northB j) = north (at3 t j) := by
  obtain ⟨-, -, -, p0, p1, p2, -, -, o1, o2⟩ := places t
  funext a; apply Fin.ext
  match a with
  | ⟨0, _⟩ => show win2_1.index t (0 : Fin 3) * 1 + 1 * (j 0).val = win2_3.index t (0 : Fin 3) * 1 + 1 * (j 0).val; omega
  | ⟨1, _⟩ => show win2_1.index t (1 : Fin 3) * 1000 + 1 * (j 1).val = win2_3.index t (1 : Fin 3) * 999 + 1 * (j 1).val; omega
  | ⟨2, _⟩ => show win2_1.index t (2 : Fin 3) * 1000 + 1 * (1 + (j 2).val) = 1 + (win2_3.index t (2 : Fin 3) * 998 + 1 * (j 2).val); omega

/-! ## What a grid point writes back, and the array after the region -/

/-- At a block point of point `t`, the body's value is the new field at the point's place in the staggered grid. -/
theorem point3 (c : Dev nD) (t : Fin cfg2.N) (j : S1x999x998.Idx) :
    k2_pay1 (F := Ideal) (iblk2 V c 0 t) (iblk2 V c 1 t) (iblk2 V c 2 t) j
      = azNew (V c (Pipeline.arrRef spec2 2)) (V c (Pipeline.arrRef spec2 0)) (V c (Pipeline.arrRef spec2 1)) (at3 t j) := by
  refine (pay_apply (iblk2 V c 0 t) (iblk2 V c 1 t) (iblk2 V c 2 t) j).trans ?_
  show aUpd (V c (Pipeline.arrRef spec2 2) (((cfg2.win 2).blk t).view.emb (fun a => j a.succ))) (V c (Pipeline.arrRef spec2 0) (((cfg2.win 0).blk t).view.emb j))
      (grad (V c (Pipeline.arrRef spec2 1) (((cfg2.win 1).blk t).view.emb (southB j))) (V c (Pipeline.arrRef spec2 1) (((cfg2.win 1).blk t).view.emb (northB j)))) = _
  rw [emb2, emb0, emb1_south, emb1_north]
  rfl

/-- Point `t` writes back block `t` of the new z-staggered field, as a function of the arrays the region finds. -/
theorem flushed3_eq (c : Dev nD) (t : Fin cfg2.N) :
    (dat2 V c).flushed 3 t = ((cfg2.win 3).blk t).view.read (Elt Ideal)
      (azNew (V c (Pipeline.arrRef spec2 2)) (V c (Pipeline.arrRef spec2 0)) (V c (Pipeline.arrRef spec2 1))) := by
  show (cfg2.win 3).cut (grid2.coords t) ((dat2 V c).after 3 t) = _
  rw [after2_3]
  unfold out2_3
  rw [View.canon_unit_zero hz3]
  simp only [View.ld_unit_zero (S := S1x999x998) hz3, View.ld_unit_zero (S := S1x1000x1000) hz3, View.ld_unit_zero (S := S999x998) hz2]
  funext j
  exact point3 V c t j

theorem mem_blk3 (t : Fin cfg2.N) (i : S16x999x998.Idx) :
    i ∈ ((cfg2.win 3).blk t).view.set ↔ ∀ a : Fin 3, win2_3.index t a * S1x999x998.size a ≤ (i a).val ∧ (i a).val < win2_3.index t a * S1x999x998.size a + S1x999x998.size a := by
  show i ∈ ((View.whole main_v14).slice (win2_3.rect t)).set ↔ _
  rw [View.set_slice_whole, Rect.mem_set_unit]
  exact Iff.rfl

/-- The sixteen one-shot blocks tile the array: `(s, r, q)` is in shot `s`'s. -/
theorem cover3 (i : S16x999x998.Idx) : ∃ t : Fin cfg2.N, (cfg2.win 3).flush t = true ∧ i ∈ ((cfg2.win 3).blk t).view.set := by
  have hi0 : (i 0).val < 16 := (i 0).isLt
  have hi1 : (i 1).val < 999 := (i 1).isLt
  have hi2 : (i 2).val < 998 := (i 2).isLt
  obtain ⟨t, ht⟩ := onto ⟨(i 0).val, hi0⟩
  have q0 : win2_3.index t (0 : Fin 3) = (i 0).val := congrFun ht 0
  have q1 : win2_3.index t (1 : Fin 3) = 0 := congrFun ht 1
  have q2 : win2_3.index t (2 : Fin 3) = 0 := congrFun ht 2
  refine ⟨t, flush2_3 t, ?_⟩
  rw [mem_blk3]
  intro a
  match a with
  | ⟨0, _⟩ => show win2_3.index t (0 : Fin 3) * 1 ≤ (i 0).val ∧ (i 0).val < win2_3.index t (0 : Fin 3) * 1 + 1; omega
  | ⟨1, _⟩ => show win2_3.index t (1 : Fin 3) * 999 ≤ (i 1).val ∧ (i 1).val < win2_3.index t (1 : Fin 3) * 999 + 999; omega
  | ⟨2, _⟩ => show win2_3.index t (2 : Fin 3) * 998 ≤ (i 2).val ∧ (i 2).val < win2_3.index t (2 : Fin 3) * 998 + 998; omega

/-- THE ARRAY after the region: the new z-staggered field, of the arrays the region finds. -/
theorem final3 (c : Dev nD) : (dat2 V c).arrAt 3 cfg2.N
    = azNew (V c (Pipeline.arrRef spec2 2)) (V c (Pipeline.arrRef spec2 0)) (V c (Pipeline.arrRef spec2 1)) :=
  (dat2 V c).arrAt_eq_of_cover 3 _ (fun t _ => flushed3_eq V c t) cover3

end Cert.KernelIdeal.StaggerZ

end
-- ==== Proof.KernelStep.lean ====
/-
  The idealized program's five results as functions of the launch memory.

  Before the first region the host side forms the two padded differences from the staggered arguments and writes no
  argument; so the first region finds every argument as launched and the differences as those host terms, and leaves
  the two pressure parts and their total (`PressureRegion`). The second region finds the x-staggered argument and its
  damping plane as launched and the total as the first region left it, and leaves the new x-staggered field
  (`StaggerX`); the third likewise for z (`StaggerZ`). A region writes only its own output arrays, so each result read
  at the last boundary walks back to the region that wrote it.

  The padded differences are named by the reference's own stage functions: the two programs form them by the same host
  operations, so on equal arguments they are the same arrays and are never read at a point.
-/
import proofs.«424261_j37804302139960_3_alg».proof.Proof.Gen.KernelIdeal.Frame
import proofs.«424261_j37804302139960_3_alg».proof.Proof.Gen.ReferenceIdeal.Read
import proofs.«424261_j37804302139960_3_alg».proof.Proof.Stencil
import proofs.«424261_j37804302139960_3_alg».proof.Proof.PressureRegion
import proofs.«424261_j37804302139960_3_alg».proof.Proof.StaggerX
import proofs.«424261_j37804302139960_3_alg».proof.Proof.StaggerZ
import Idealize.ShloMosaic.Lib.StableHlo.Run

set_option maxRecDepth 16384

noncomputable section

namespace Cert.KernelIdeal.StepValue

open Cert.KernelIdeal Cert.KernelIdeal.Gen Cert.Stencil
open Idealize.ShloMosaic Idealize.ShloMosaic.TcCoe Idealize.ShloMosaic.StableHlo

variable (m : (ℓ : Loc nD τ sig) → Buf (Elt Ideal) ℓ) (ρ : Dev nD → PrngReg)

/-! ## Equal operands, equal arrays -/

theorem pNew_congr {κ κ' σ σ' : Plane.Idx → EReal} {d d' p p' : Grid.Idx → EReal}
    (h1 : κ = κ') (h2 : σ = σ') (h3 : d = d') (h4 : p = p') : pNew κ σ d p = pNew κ' σ' d' p' := by
  subst h1 h2 h3 h4; rfl

theorem pTot_congr {κ κ' σx σx' σz σz' : Plane.Idx → EReal} {dx dx' dz dz' px px' pz pz' s s' : Grid.Idx → EReal}
    (h1 : κ = κ') (h2 : σx = σx') (h3 : σz = σz') (h4 : dx = dx') (h5 : dz = dz') (h6 : px = px') (h7 : pz = pz') (h8 : s = s') :
    pTot κ σx σz dx dz px pz s = pTot κ' σx' σz' dx' dz' px' pz' s' := by
  subst h1 h2 h3 h4 h5 h6 h7 h8; rfl

theorem axNew_congr {σ σ' : PlaneX.Idx → EReal} {a a' : GridX.Idx → EReal} {P P' : Grid.Idx → EReal}
    (h1 : σ = σ') (h2 : a = a') (h3 : P = P') : axNew σ a P = axNew σ' a' P' := by
  subst h1 h2 h3; rfl

theorem azNew_congr {σ σ' : PlaneZ.Idx → EReal} {a a' : GridZ.Idx → EReal} {P P' : Grid.Idx → EReal}
    (h1 : σ = σ') (h2 : a = a') (h3 : P = P') : azNew σ a P = azNew σ' a' P' := by
  subst h1 h2 h3; rfl

/-! ## Up to the first region: the host side -/

/-- One stretch of host operations keeps a buffer none of them writes. -/
local macro "kept_by " ops:ident " over " prev:term : tactic => `(tactic|
  refine (StableHlo.after_of_forall_not_mem (b := _) $ops $prev (List.forall_iff_forall_mem.mp (by
    simp only [$ops:ident, List.flatten_cons, List.flatten_nil, List.append_nil, List.cons_append, List.nil_append, List.Forall,
      StableHlo.nullary_writes, StableHlo.unary_writes, StableHlo.binary_writes, StableHlo.ternary_writes, StableHlo.quaternary_writes,
      StableHlo.reshape_writes, StableHlo.binaryIndexed_writes, Finset.mem_singleton]
    repeat' apply And.intro
    all_goals exact StableHlo.devRef_ne_of_ne (by decide)))).trans ?_)

/-- No host operation writes an argument: the first region finds each as launched. -/
theorem W4_arg0 (c : Dev nD) : W4 m ρ c (Proc.devRef .tc main_arg0) = m ((c : Thread nD τ).loc main_arg0) := by
  kept_by hostOps0_3 over (W3 m ρ c); kept_by hostOps0_2 over (W2 m ρ c); kept_by hostOps0_1 over (W1 m ρ c); kept_by hostOps0 over (W0 m ρ c); rfl
theorem W4_arg1 (c : Dev nD) : W4 m ρ c (Proc.devRef .tc main_arg1) = m ((c : Thread nD τ).loc main_arg1) := by
  kept_by hostOps0_3 over (W3 m ρ c); kept_by hostOps0_2 over (W2 m ρ c); kept_by hostOps0_1 over (W1 m ρ c); kept_by hostOps0 over (W0 m ρ c); rfl
theorem W4_arg2 (c : Dev nD) : W4 m ρ c (Proc.devRef .tc main_arg2) = m ((c : Thread nD τ).loc main_arg2) := by
  kept_by hostOps0_3 over (W3 m ρ c); kept_by hostOps0_2 over (W2 m ρ c); kept_by hostOps0_1 over (W1 m ρ c); kept_by hostOps0 over (W0 m ρ c); rfl
theorem W4_arg3 (c : Dev nD) : W4 m ρ c (Proc.devRef .tc main_arg3) = m ((c : Thread nD τ).loc main_arg3) := by
  kept_by hostOps0_3 over (W3 m ρ c); kept_by hostOps0_2 over (W2 m ρ c); kept_by hostOps0_1 over (W1 m ρ c); kept_by hostOps0 over (W0 m ρ c); rfl
theorem W4_arg4 (c : Dev nD) : W4 m ρ c (Proc.devRef .tc main_arg4) = m ((c : Thread nD τ).loc main_arg4) := by
  kept_by hostOps0_3 over (W3 m ρ c); kept_by hostOps0_2 over (W2 m ρ c); kept_by hostOps0_1 over (W1 m ρ c); kept_by hostOps0 over (W0 m ρ c); rfl
theorem W4_arg5 (c : Dev nD) : W4 m ρ c (Proc.devRef .tc main_arg5) = m ((c : Thread nD τ).loc main_arg5) := by
  kept_by hostOps0_3 over (W3 m ρ c); kept_by hostOps0_2 over (W2 m ρ c); kept_by hostOps0_1 over (W1 m ρ c); kept_by hostOps0 over (W0 m ρ c); rfl
theorem W4_arg6 (c : Dev nD) : W4 m ρ c (Proc.devRef .tc main_arg6) = m ((c : Thread nD τ).loc main_arg6) := by
  kept_by hostOps0_3 over (W3 m ρ c); kept_by hostOps0_2 over (W2 m ρ c); kept_by hostOps0_1 over (W1 m ρ c); kept_by hostOps0 over (W0 m ρ c); rfl
theorem W4_arg7 (c : Dev nD) : W4 m ρ c (Proc.devRef .tc main_arg7) = m ((c : Thread nD τ).loc main_arg7) := by
  kept_by hostOps0_3 over (W3 m ρ c); kept_by hostOps0_2 over (W2 m ρ c); kept_by hostOps0_1 over (W1 m ρ c); kept_by hostOps0 over (W0 m ρ c); rfl
theorem W4_arg8 (c : Dev nD) : W4 m ρ c (Proc.devRef .tc main_arg8) = m ((c : Thread nD τ).loc main_arg8) := by
  kept_by hostOps0_3 over (W3 m ρ c); kept_by hostOps0_2 over (W2 m ρ c); kept_by hostOps0_1 over (W1 m ρ c); kept_by hostOps0 over (W0 m ρ c); rfl
theorem W4_arg9 (c : Dev nD) : W4 m ρ c (Proc.devRef .tc main_arg9) = m ((c : Thread nD τ).loc main_arg9) := by
  kept_by hostOps0_3 over (W3 m ρ c); kept_by hostOps0_2 over (W2 m ρ c); kept_by hostOps0_1 over (W1 m ρ c); kept_by hostOps0 over (W0 m ρ c); rfl

/-- The padded x-difference the first region finds is the reference's stage of the x-staggered argument: the same
    slices, difference, quotient by the spacing and zero border. -/
theorem W4_dx (c : Dev nD) : W4 m ρ c (Proc.devRef .tc main_v5)
    = Cert.ReferenceIdeal.Read.val_main_v5 (F := Ideal) (m ((c : Thread nD τ).loc main_arg2)) := by
  kept_by hostOps0_3 over (W3 m ρ c)
  kept_by hostOps0_2 over (W2 m ρ c)
  show StableHlo.after hostOps0_1 (StableHlo.after hostOps0 (W0 m ρ c)) (Proc.devRef .tc main_v5) = _
  after_results
  rfl

/-- Likewise the padded z-difference. -/
theorem W4_dz (c : Dev nD) : W4 m ρ c (Proc.devRef .tc main_v11)
    = Cert.ReferenceIdeal.Read.val_main_v11 (F := Ideal) (m ((c : Thread nD τ).loc main_arg3)) := by
  show StableHlo.after hostOps0_3 (StableHlo.after hostOps0_2 (StableHlo.after hostOps0_1 (StableHlo.after hostOps0 (W0 m ρ c))))
    (Proc.devRef .tc main_v11) = _
  after_results
  rfl

/-! ## The first region's arrays -/

/-- The padded differences as both programs make them, of the launch memory. -/
abbrev dx (c : Dev nD) : Grid.Idx → EReal := Cert.ReferenceIdeal.Read.val_main_v5 (F := Ideal) (m ((c : Thread nD τ).loc main_arg2))
abbrev dz (c : Dev nD) : Grid.Idx → EReal := Cert.ReferenceIdeal.Read.val_main_v11 (F := Ideal) (m ((c : Thread nD τ).loc main_arg3))

/-- The total pressure after the step, of the launch memory. -/
abbrev Pk (c : Dev nD) : Grid.Idx → EReal :=
  pTot (m ((c : Thread nD τ).loc main_arg5)) (m ((c : Thread nD τ).loc main_arg6)) (m ((c : Thread nD τ).loc main_arg8)) (dx m c) (dz m c)
    (m ((c : Thread nD τ).loc main_arg0)) (m ((c : Thread nD τ).loc main_arg1)) (m ((c : Thread nD τ).loc main_arg4))

theorem W5_px (c : Dev nD) : W5 m ρ c (Proc.devRef .tc main_v12_0)
    = pNew (m ((c : Thread nD τ).loc main_arg5)) (m ((c : Thread nD τ).loc main_arg6)) (dx m c) (m ((c : Thread nD τ).loc main_arg0)) :=
  ((W5_arr m ρ c 8).trans (PressureRegion.final8 (V4 m ρ) c)).trans
    (pNew_congr (W4_arg5 m ρ c) (W4_arg6 m ρ c) (W4_dx m ρ c) (W4_arg0 m ρ c))

theorem W5_pz (c : Dev nD) : W5 m ρ c (Proc.devRef .tc main_v12_1)
    = pNew (m ((c : Thread nD τ).loc main_arg5)) (m ((c : Thread nD τ).loc main_arg8)) (dz m c) (m ((c : Thread nD τ).loc main_arg1)) :=
  ((W5_arr m ρ c 9).trans (PressureRegion.final9 (V4 m ρ) c)).trans
    (pNew_congr (W4_arg5 m ρ c) (W4_arg8 m ρ c) (W4_dz m ρ c) (W4_arg1 m ρ c))

theorem W5_P (c : Dev nD) : W5 m ρ c (Proc.devRef .tc main_v12_2) = Pk m c :=
  ((W5_arr m ρ c 10).trans (PressureRegion.final10 (V4 m ρ) c)).trans
    (pTot_congr (W4_arg5 m ρ c) (W4_arg6 m ρ c) (W4_arg8 m ρ c) (W4_dx m ρ c) (W4_dz m ρ c) (W4_arg0 m ρ c) (W4_arg1 m ρ c) (W4_arg4 m ρ c))

/-! ## The later regions: what they find, what they leave -/

theorem W5_arg2 (c : Dev nD) : W5 m ρ c (Proc.devRef .tc main_arg2) = m ((c : Thread nD τ).loc main_arg2) :=
  (W5_of_ne m ρ c main_arg2 (by decide)).trans (W4_arg2 m ρ c)
theorem W5_arg7 (c : Dev nD) : W5 m ρ c (Proc.devRef .tc main_arg7) = m ((c : Thread nD τ).loc main_arg7) :=
  (W5_of_ne m ρ c main_arg7 (by decide)).trans (W4_arg7 m ρ c)
theorem W5_arg3 (c : Dev nD) : W5 m ρ c (Proc.devRef .tc main_arg3) = m ((c : Thread nD τ).loc main_arg3) :=
  (W5_of_ne m ρ c main_arg3 (by decide)).trans (W4_arg3 m ρ c)
theorem W5_arg9 (c : Dev nD) : W5 m ρ c (Proc.devRef .tc main_arg9) = m ((c : Thread nD τ).loc main_arg9) :=
  (W5_of_ne m ρ c main_arg9 (by decide)).trans (W4_arg9 m ρ c)

/-- The second region only reads the total pressure: it leaves it as found. -/
theorem W6_P (c : Dev nD) : W6 m ρ c (Proc.devRef .tc main_v12_2) = Pk m c :=
  (W6_arr m ρ c 1).trans ((((dat1 (V5 m ρ) c).arrAt_in 1 rfl _).trans (A_eq1 (V5 m ρ) c 1)).trans (W5_P m ρ c))
theorem W6_arg3 (c : Dev nD) : W6 m ρ c (Proc.devRef .tc main_arg3) = m ((c : Thread nD τ).loc main_arg3) :=
  (W6_of_ne m ρ c main_arg3 (by decide)).trans (W5_arg3 m ρ c)
theorem W6_arg9 (c : Dev nD) : W6 m ρ c (Proc.devRef .tc main_arg9) = m ((c : Thread nD τ).loc main_arg9) :=
  (W6_of_ne m ρ c main_arg9 (by decide)).trans (W5_arg9 m ρ c)

theorem W6_ax (c : Dev nD) : W6 m ρ c (Proc.devRef .tc main_v13)
    = axNew (m ((c : Thread nD τ).loc main_arg7)) (m ((c : Thread nD τ).loc main_arg2)) (Pk m c) :=
  ((W6_arr m ρ c 3).trans (StaggerX.final3 (V5 m ρ) c)).trans
    (axNew_congr (W5_arg7 m ρ c) (W5_arg2 m ρ c) (W5_P m ρ c))

/-! ## The five results at the last boundary -/

theorem W7_px (c : Dev nD) : W7 m ρ c (Proc.devRef .tc main_v12_0)
    = pNew (m ((c : Thread nD τ).loc main_arg5)) (m ((c : Thread nD τ).loc main_arg6)) (dx m c) (m ((c : Thread nD τ).loc main_arg0)) :=
  (W7_of_ne m ρ c main_v12_0 (by decide)).trans ((W6_of_ne m ρ c main_v12_0 (by decide)).trans (W5_px m ρ c))

theorem W7_pz (c : Dev nD) : W7 m ρ c (Proc.devRef .tc main_v12_1)
    = pNew (m ((c : Thread nD τ).loc main_arg5)) (m ((c : Thread nD τ).loc main_arg8)) (dz m c) (m ((c : Thread nD τ).loc main_arg1)) :=
  (W7_of_ne m ρ c main_v12_1 (by decide)).trans ((W6_of_ne m ρ c main_v12_1 (by decide)).trans (W5_pz m ρ c))

theorem W7_ax (c : Dev nD) : W7 m ρ c (Proc.devRef .tc main_v13)
    = axNew (m ((c : Thread nD τ).loc main_arg7)) (m ((c : Thread nD τ).loc main_arg2)) (Pk m c) :=
  (W7_of_ne m ρ c main_v13 (by decide)).trans (W6_ax m ρ c)

theorem W7_az (c : Dev nD) : W7 m ρ c (Proc.devRef .tc main_v14)
    = azNew (m ((c : Thread nD τ).loc main_arg9)) (m ((c : Thread nD τ).loc main_arg3)) (Pk m c) :=
  ((W7_arr m ρ c 3).trans (StaggerZ.final3 (V6 m ρ) c)).trans
    (azNew_congr (W6_arg9 m ρ c) (W6_arg3 m ρ c) (W6_P m ρ c))

/-- The third region only reads the total pressure too. -/
theorem W7_P (c : Dev nD) : W7 m ρ c (Proc.devRef .tc main_v12_2) = Pk m c :=
  (W7_arr m ρ c 1).trans ((((dat2 (V6 m ρ) c).arrAt_in 1 rfl _).trans (A_eq2 (V6 m ρ) c 1)).trans (W6_P m ρ c))

end Cert.KernelIdeal.StepValue

end
-- ==== Proof.ReferenceStep.lean ====
/-
  The reference's five results as the same functions of the arguments.

  The reference computes on whole arrays: each coefficient plane is first spread over the sixteen shots (a leading unit
  axis, then sixteen copies), scalars are spread over whole arrays, and the staggered differences of the new total
  pressure are differences of two slices one step apart. Read at a grid point, a spread plane is the plane under the
  point, a spread scalar is the scalar, and the two slices are the point's two neighbours; what remains at the point is
  the point update with the half step spelt `(σ · dt) / 2`, which is `σ` times the half-step literal at every extended
  real (`Stencil.half_step`). The padded differences are kept as the opaque arrays they are: both programs compute
  them by the same operations, so they are never read at a point.
-/
import proofs.«424261_j37804302139960_3_alg».proof.Proof.Gen.ReferenceIdeal.Read
import proofs.«424261_j37804302139960_3_alg».proof.Proof.Stencil

noncomputable section

namespace Cert.ReferenceIdeal.StepValue

open Cert.ReferenceIdeal Cert.ReferenceIdeal.Read Cert.Stencil Idealize.ShloMosaic

/-! ## The stages' index maps are the grid's -/

/-- A plane spread over the shots, read at a grid point, is read under the point. -/
theorem under_12_13 (i : S16x1000x1000.Idx) : idx_main_v12 (idx_main_v13 i) = under i :=
  funext fun a => match a with | ⟨0, _⟩ => rfl | ⟨1, _⟩ => rfl
theorem under_21_22 (i : S16x1000x1000.Idx) : idx_main_v21 (idx_main_v22 i) = under i :=
  funext fun a => match a with | ⟨0, _⟩ => rfl | ⟨1, _⟩ => rfl
theorem under_31_32 (i : S16x1000x1000.Idx) : idx_main_v31 (idx_main_v32 i) = under i :=
  funext fun a => match a with | ⟨0, _⟩ => rfl | ⟨1, _⟩ => rfl
theorem under_34_35 (i : S16x1000x1000.Idx) : idx_main_v34 (idx_main_v35 i) = under i :=
  funext fun a => match a with | ⟨0, _⟩ => rfl | ⟨1, _⟩ => rfl
theorem under_43_44 (i : S16x1000x1000.Idx) : idx_main_v43 (idx_main_v44 i) = under i :=
  funext fun a => match a with | ⟨0, _⟩ => rfl | ⟨1, _⟩ => rfl
theorem under_53_54 (i : S16x1000x1000.Idx) : idx_main_v53 (idx_main_v54 i) = under i :=
  funext fun a => match a with | ⟨0, _⟩ => rfl | ⟨1, _⟩ => rfl
theorem underX_76_77 (i : S16x998x999.Idx) : idx_main_v76 (idx_main_v77 i) = underX i :=
  funext fun a => match a with | ⟨0, _⟩ => rfl | ⟨1, _⟩ => rfl
theorem underX_88_89 (i : S16x998x999.Idx) : idx_main_v88 (idx_main_v89 i) = underX i :=
  funext fun a => match a with | ⟨0, _⟩ => rfl | ⟨1, _⟩ => rfl
theorem underZ_97_98 (i : S16x999x998.Idx) : idx_main_v97 (idx_main_v98 i) = underZ i :=
  funext fun a => match a with | ⟨0, _⟩ => rfl | ⟨1, _⟩ => rfl
theorem underZ_109_110 (i : S16x999x998.Idx) : idx_main_v109 (idx_main_v110 i) = underZ i :=
  funext fun a => match a with | ⟨0, _⟩ => rfl | ⟨1, _⟩ => rfl

/-- The two slices of the total pressure behind the x-staggered difference are the east and west neighbours. -/
theorem east_60 (i : S16x998x999.Idx) : idx_main_v60 i = east i :=
  funext fun a => match a with | ⟨0, _⟩ => rfl | ⟨1, _⟩ => rfl | ⟨2, _⟩ => rfl
theorem west_61 (i : S16x998x999.Idx) : idx_main_v61 i = west i :=
  funext fun a => match a with | ⟨0, _⟩ => rfl | ⟨1, _⟩ => rfl | ⟨2, _⟩ => rfl
/-- Those behind the z-staggered difference are the south and north neighbours. -/
theorem south_65 (i : S16x999x998.Idx) : idx_main_v65 i = south i :=
  funext fun a => match a with | ⟨0, _⟩ => rfl | ⟨1, _⟩ => rfl | ⟨2, _⟩ => rfl
theorem north_66 (i : S16x999x998.Idx) : idx_main_v66 i = north i :=
  funext fun a => match a with | ⟨0, _⟩ => rfl | ⟨1, _⟩ => rfl | ⟨2, _⟩ => rfl

/-! ## The results -/

/-- The first result is the pressure's x part after the step, over the padded x-difference as the reference makes it. -/
theorem px_new (x0 : (⟨S16x1000x1000, .f32⟩ : BufTy).Contents (Elt Ideal)) (x2 : (⟨S16x998x999, .f32⟩ : BufTy).Contents (Elt Ideal))
    (x5 x6 : (⟨S1000x1000, .f32⟩ : BufTy).Contents (Elt Ideal)) :
    val_main_v33 (F := Ideal) x0 x2 x5 x6 = pNew x5 x6 (val_main_v5 (F := Ideal) x2) x0 := by
  funext i
  simp only [val_main_v33_apply, val_main_v24_apply, val_main_v14_apply, val_main_v13_apply, val_main_v12_apply, val_main_v23_apply,
    val_main_v22_apply, val_main_v21_apply, val_main_v20_apply, val_main_v19_apply, val_main_cst_4_apply, val_main_v18_apply,
    val_main_v16_apply, val_main_v15_apply, val_main_cst_2_apply, val_main_v17_apply, val_main_cst_3_apply, val_main_v32_apply,
    val_main_v31_apply, val_main_v30_apply, val_main_v29_apply, val_main_cst_7_apply, val_main_v28_apply, val_main_v26_apply,
    val_main_v25_apply, val_main_cst_5_apply, val_main_v27_apply, val_main_cst_6_apply, under_12_13, under_21_22, under_31_32]
  exact pUpd_quot _ _ _ _

/-- The second result is the pressure's z part after the step, over the padded z-difference as the reference makes it. -/
theorem pz_new (x1 : (⟨S16x1000x1000, .f32⟩ : BufTy).Contents (Elt Ideal)) (x3 : (⟨S16x999x998, .f32⟩ : BufTy).Contents (Elt Ideal))
    (x5 x8 : (⟨S1000x1000, .f32⟩ : BufTy).Contents (Elt Ideal)) :
    val_main_v55 (F := Ideal) x1 x3 x5 x8 = pNew x5 x8 (val_main_v11 (F := Ideal) x3) x1 := by
  funext i
  simp only [val_main_v55_apply, val_main_v46_apply, val_main_v36_apply, val_main_v35_apply, val_main_v34_apply, val_main_v45_apply,
    val_main_v44_apply, val_main_v43_apply, val_main_v42_apply, val_main_v41_apply, val_main_cst_10_apply, val_main_v40_apply,
    val_main_v38_apply, val_main_v37_apply, val_main_cst_8_apply, val_main_v39_apply, val_main_cst_9_apply, val_main_v54_apply,
    val_main_v53_apply, val_main_v52_apply, val_main_v51_apply, val_main_cst_13_apply, val_main_v50_apply, val_main_v48_apply,
    val_main_v47_apply, val_main_cst_11_apply, val_main_v49_apply, val_main_cst_12_apply, under_34_35, under_43_44, under_53_54]
  exact pUpd_quot _ _ _ _

/-- The last result is the total pressure after the step. -/
theorem p_tot (x0 x1 : (⟨S16x1000x1000, .f32⟩ : BufTy).Contents (Elt Ideal)) (x2 : (⟨S16x998x999, .f32⟩ : BufTy).Contents (Elt Ideal))
    (x3 : (⟨S16x999x998, .f32⟩ : BufTy).Contents (Elt Ideal)) (x4 : (⟨S16x1000x1000, .f32⟩ : BufTy).Contents (Elt Ideal))
    (x5 x6 x8 : (⟨S1000x1000, .f32⟩ : BufTy).Contents (Elt Ideal)) :
    val_main_v59 (F := Ideal) x0 x1 x2 x3 x4 x5 x6 x8
      = pTot x5 x6 x8 (val_main_v5 (F := Ideal) x2) (val_main_v11 (F := Ideal) x3) x0 x1 x4 := by
  funext i
  simp only [val_main_v59_apply, val_main_v56_apply, val_main_v58_apply, val_main_v57_apply, val_main_cst_14_apply]
  rw [px_new, pz_new]
  rfl

/-- The third result is the x-staggered field after the step, from the reference's own total pressure. -/
theorem ax_new (x0 x1 : (⟨S16x1000x1000, .f32⟩ : BufTy).Contents (Elt Ideal)) (x2 : (⟨S16x998x999, .f32⟩ : BufTy).Contents (Elt Ideal))
    (x3 : (⟨S16x999x998, .f32⟩ : BufTy).Contents (Elt Ideal)) (x4 : (⟨S16x1000x1000, .f32⟩ : BufTy).Contents (Elt Ideal))
    (x5 x6 : (⟨S1000x1000, .f32⟩ : BufTy).Contents (Elt Ideal)) (x7 : (⟨S998x999, .f32⟩ : BufTy).Contents (Elt Ideal))
    (x8 : (⟨S1000x1000, .f32⟩ : BufTy).Contents (Elt Ideal)) :
    val_main_v90 (F := Ideal) x0 x1 x2 x3 x4 x5 x6 x7 x8
      = axNew x7 x2 (val_main_v59 (F := Ideal) x0 x1 x2 x3 x4 x5 x6 x8) := by
  funext i
  simp only [val_main_v90_apply, val_main_v81_apply, val_main_v78_apply, val_main_v77_apply, val_main_v76_apply, val_main_v75_apply,
    val_main_v74_apply, val_main_cst_19_apply, val_main_v73_apply, val_main_v71_apply, val_main_v70_apply, val_main_cst_17_apply,
    val_main_v72_apply, val_main_cst_18_apply, val_main_v80_apply, val_main_v79_apply, val_main_cst_20_apply, val_main_v64_apply,
    val_main_v62_apply, val_main_v60_apply, val_main_v61_apply, val_main_v63_apply, val_main_cst_15_apply, val_main_v89_apply,
    val_main_v88_apply, val_main_v87_apply, val_main_v86_apply, val_main_cst_23_apply, val_main_v85_apply, val_main_v83_apply,
    val_main_v82_apply, val_main_cst_21_apply, val_main_v84_apply, val_main_cst_22_apply, underX_76_77, underX_88_89, east_60, west_61]
  exact aUpd_quot _ _ _

/-- The fourth result is the z-staggered field after the step, from the reference's own total pressure. -/
theorem az_new (x0 x1 : (⟨S16x1000x1000, .f32⟩ : BufTy).Contents (Elt Ideal)) (x2 : (⟨S16x998x999, .f32⟩ : BufTy).Contents (Elt Ideal))
    (x3 : (⟨S16x999x998, .f32⟩ : BufTy).Contents (Elt Ideal)) (x4 : (⟨S16x1000x1000, .f32⟩ : BufTy).Contents (Elt Ideal))
    (x5 x6 x8 : (⟨S1000x1000, .f32⟩ : BufTy).Contents (Elt Ideal)) (x9 : (⟨S999x998, .f32⟩ : BufTy).Contents (Elt Ideal)) :
    val_main_v111 (F := Ideal) x0 x1 x2 x3 x4 x5 x6 x8 x9
      = azNew x9 x3 (val_main_v59 (F := Ideal) x0 x1 x2 x3 x4 x5 x6 x8) := by
  funext i
  simp only [val_main_v111_apply, val_main_v102_apply, val_main_v99_apply, val_main_v98_apply, val_main_v97_apply, val_main_v96_apply,
    val_main_v95_apply, val_main_cst_26_apply, val_main_v94_apply, val_main_v92_apply, val_main_v91_apply, val_main_cst_24_apply,
    val_main_v93_apply, val_main_cst_25_apply, val_main_v101_apply, val_main_v100_apply, val_main_cst_27_apply, val_main_v69_apply,
    val_main_v67_apply, val_main_v65_apply, val_main_v66_apply, val_main_v68_apply, val_main_cst_16_apply, val_main_v110_apply,
    val_main_v109_apply, val_main_v108_apply, val_main_v107_apply, val_main_cst_30_apply, val_main_v106_apply, val_main_v104_apply,
    val_main_v103_apply, val_main_cst_28_apply, val_main_v105_apply, val_main_cst_29_apply, underZ_97_98, underZ_109_110, south_65, north_66]
  exact aUpd_quot _ _ _

end Cert.ReferenceIdeal.StepValue

end
-- ==== Proof.lean ====
/-
  One time step of a split-field acoustic wave update with damping layers: the tiled program against the whole-array
  reference, over the extended reals.

  Both programs compute the five arrays of `Stencil` — the two pressure parts, the two staggered fields, the total
  pressure — as the same functions of the ten arguments. The tiled program does it in three regions (`PressureRegion`,
  `StaggerX`, `StaggerZ`) whose output arrays are read off its run's last boundary (`KernelIdealRun`, `KernelStep`);
  the reference's run is read stage by stage (`ReferenceStep`). The one place the two texts differ is the half time
  step, a single literal on one side and a literal halved on the other: equal at every extended real
  (`Stencil.half_step`), so the precondition is never opened. The idealization rewrote nothing, so `preserves` is `True`.
-/
import proofs.«424261_j37804302139960_3_alg».proof.Defs
import proofs.«424261_j37804302139960_3_alg».proof.Proof.Gen.Kernel
import proofs.«424261_j37804302139960_3_alg».proof.Proof.Gen.Kernel.Skeleton
import proofs.«424261_j37804302139960_3_alg».proof.Proof.Gen.Kernel.Launch
import proofs.«424261_j37804302139960_3_alg».proof.Proof.Gen.Kernel.Points
import proofs.«424261_j37804302139960_3_alg».proof.Proof.Gen.Kernel.Frame
import proofs.«424261_j37804302139960_3_alg».proof.Proof.Gen.KernelIdeal
import proofs.«424261_j37804302139960_3_alg».proof.Proof.Gen.KernelIdeal.Skeleton
import proofs.«424261_j37804302139960_3_alg».proof.Proof.Gen.KernelIdeal.Launch
import proofs.«424261_j37804302139960_3_alg».proof.Proof.Gen.KernelIdeal.Points
import proofs.«424261_j37804302139960_3_alg».proof.Proof.Gen.KernelIdeal.Frame
import proofs.«424261_j37804302139960_3_alg».proof.Proof.Gen.ReferenceIdeal
import proofs.«424261_j37804302139960_3_alg».proof.Proof.Gen.Pre_finite_inputs
import proofs.«424261_j37804302139960_3_alg».proof.Proof.Gen.ReferenceIdeal.Run
import proofs.«424261_j37804302139960_3_alg».proof.Proof.Gen.ReferenceIdeal.Read
import proofs.«424261_j37804302139960_3_alg».proof.Proof.KernelIdealRun
import proofs.«424261_j37804302139960_3_alg».proof.Proof.KernelStep
import proofs.«424261_j37804302139960_3_alg».proof.Proof.ReferenceStep
import Idealize.ShloMosaic.Adequacy
import Idealize.ShloMosaic.Init

set_option maxRecDepth 16384

noncomputable section

namespace Cert.Proof

open Idealize.ShloMosaic Idealize.ShloMosaic.TcCoe Idealize.SL.Sem Cert.Stencil

theorem frame_k : @Cert.frame_Kernel Cert.Kernel.Gen.facts Cert.Pre_finite_inputs.Gen.facts :=
  fun m ρ _ => Cert.Kernel.Gen.frame m ρ

theorem frame_ki : @Cert.frame_KernelIdeal Cert.KernelIdeal.Gen.facts Cert.Pre_finite_inputs.Gen.facts :=
  fun m ρ _ => Cert.KernelIdeal.Gen.frame m ρ

/-- The reference's frame is its run with the five results dropped. -/
theorem frame_ri : @Cert.frame_ReferenceIdeal Cert.ReferenceIdeal.Gen.facts Cert.Pre_finite_inputs.Gen.facts :=
  fun m ρ _ => (θ_run Cert.ReferenceIdeal.defs _ _).mono (fun _ h c => (h c).2.2.2.2.2) (Cert.ReferenceIdeal.Value.run (F := Ideal) m ρ)

/-- From memories agreeing on the arguments both programs end with the five arrays of the step, as functions of the
    tiled program's launch memory: the tiled program by its regions, the reference by its stages and the agreement. -/
theorem algebraic : @Cert.algebraic_KernelIdeal_ReferenceIdeal Cert.KernelIdeal.Gen.facts Cert.ReferenceIdeal.Gen.facts Cert.Pre_finite_inputs.Gen.facts := by
  intro m ρ m' ρ' _ hagree
  refine ⟨fun c => pNew (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (Cert.KernelIdeal.StepValue.dx m c) (m ((c.tc : Thread Cert.KernelIdeal.nD Cert.KernelIdeal.τ).loc Cert.KernelIdeal.main_arg0)),
    fun c => pNew (m ((c.tc : Thread Cert.KernelIdeal.nD Cert.KernelIdeal.τ).loc Cert.KernelIdeal.main_arg5)) (m ((c.tc : Thread Cert.KernelIdeal.nD Cert.KernelIdeal.τ).loc Cert.KernelIdeal.main_arg8)) (Cert.KernelIdeal.StepValue.dz m c) (m ((c.tc : Thread Cert.KernelIdeal.nD Cert.KernelIdeal.τ).loc Cert.KernelIdeal.main_arg1)),
    fun c => axNew (m ((c.tc : Thread Cert.KernelIdeal.nD Cert.KernelIdeal.τ).loc Cert.KernelIdeal.main_arg7)) (m ((c.tc : Thread Cert.KernelIdeal.nD Cert.KernelIdeal.τ).loc Cert.KernelIdeal.main_arg2)) (Cert.KernelIdeal.StepValue.Pk m c),
    fun c => azNew (m ((c.tc : Thread Cert.KernelIdeal.nD Cert.KernelIdeal.τ).loc Cert.KernelIdeal.main_arg9)) (m ((c.tc : Thread Cert.KernelIdeal.nD Cert.KernelIdeal.τ).loc Cert.KernelIdeal.main_arg3)) (Cert.KernelIdeal.StepValue.Pk m c),
    fun c => Cert.KernelIdeal.StepValue.Pk m c, ?_, ?_⟩
  · refine (θ_run Cert.KernelIdeal.defs _ _).mono (fun r h c => ?_) (Cert.KernelIdeal.Whole.run_all (F := Ideal) m ρ)
    exact ⟨(h c _ (Cert.KernelIdeal.Gen.mem_uc Cert.KernelIdeal.main_v12_0 (by decide))).trans (Cert.KernelIdeal.StepValue.W7_px m ρ c),
      (h c _ (Cert.KernelIdeal.Gen.mem_uc Cert.KernelIdeal.main_v12_1 (by decide))).trans (Cert.KernelIdeal.StepValue.W7_pz m ρ c),
      (h c _ (Cert.KernelIdeal.Gen.mem_uc Cert.KernelIdeal.main_v13 (by decide))).trans (Cert.KernelIdeal.StepValue.W7_ax m ρ c),
      (h c _ (Cert.KernelIdeal.Gen.mem_uc Cert.KernelIdeal.main_v14 (by decide))).trans (Cert.KernelIdeal.StepValue.W7_az m ρ c),
      (h c _ (Cert.KernelIdeal.Gen.mem_uc Cert.KernelIdeal.main_v12_2 (by decide))).trans (Cert.KernelIdeal.StepValue.W7_P m ρ c),
      (h c _ (Cert.KernelIdeal.Gen.mem_uc Cert.KernelIdeal.main_arg0 (by decide))).trans (Cert.KernelIdeal.Gen.W7_main_arg0 m ρ c),
      (h c _ (Cert.KernelIdeal.Gen.mem_uc Cert.KernelIdeal.main_arg1 (by decide))).trans (Cert.KernelIdeal.Gen.W7_main_arg1 m ρ c),
      (h c _ (Cert.KernelIdeal.Gen.mem_uc Cert.KernelIdeal.main_arg2 (by decide))).trans (Cert.KernelIdeal.Gen.W7_main_arg2 m ρ c),
      (h c _ (Cert.KernelIdeal.Gen.mem_uc Cert.KernelIdeal.main_arg3 (by decide))).trans (Cert.KernelIdeal.Gen.W7_main_arg3 m ρ c),
      (h c _ (Cert.KernelIdeal.Gen.mem_uc Cert.KernelIdeal.main_arg4 (by decide))).trans (Cert.KernelIdeal.Gen.W7_main_arg4 m ρ c),
      (h c _ (Cert.KernelIdeal.Gen.mem_uc Cert.KernelIdeal.main_arg5 (by decide))).trans (Cert.KernelIdeal.Gen.W7_main_arg5 m ρ c),
      (h c _ (Cert.KernelIdeal.Gen.mem_uc Cert.KernelIdeal.main_arg6 (by decide))).trans (Cert.KernelIdeal.Gen.W7_main_arg6 m ρ c),
      (h c _ (Cert.KernelIdeal.Gen.mem_uc Cert.KernelIdeal.main_arg7 (by decide))).trans (Cert.KernelIdeal.Gen.W7_main_arg7 m ρ c),
      (h c _ (Cert.KernelIdeal.Gen.mem_uc Cert.KernelIdeal.main_arg8 (by decide))).trans (Cert.KernelIdeal.Gen.W7_main_arg8 m ρ c),
      (h c _ (Cert.KernelIdeal.Gen.mem_uc Cert.KernelIdeal.main_arg9 (by decide))).trans (Cert.KernelIdeal.Gen.W7_main_arg9 m ρ c)⟩
  · refine (θ_run Cert.ReferenceIdeal.defs _ _).mono (fun r h c => ?_) (Cert.ReferenceIdeal.Value.run (F := Ideal) m' ρ')
    obtain ⟨a0, a1, a2, a3, a4, a5, a6, a7, a8, a9⟩ := hagree c
    obtain ⟨r0, r1, r2, r3, r4, rargs⟩ := h c
    refine ⟨r0.trans ?_, r1.trans ?_, r2.trans ?_, r3.trans ?_, r4.trans ?_, rargs⟩
    · exact (Cert.ReferenceIdeal.Read.val_main_v33_eq _ _ _ _).trans ((Cert.ReferenceIdeal.StepValue.px_new _ _ _ _).trans (by rw [a0, a2, a5, a6]))
    · exact (Cert.ReferenceIdeal.Read.val_main_v55_eq _ _ _ _).trans ((Cert.ReferenceIdeal.StepValue.pz_new _ _ _ _).trans (by rw [a1, a3, a5, a8]))
    · exact (Cert.ReferenceIdeal.Read.val_main_v90_eq m' c).trans ((Cert.ReferenceIdeal.StepValue.ax_new _ _ _ _ _ _ _ _ _).trans (by
        rw [Cert.ReferenceIdeal.StepValue.p_tot, a0, a1, a2, a3, a4, a5, a6, a7, a8]))
    · exact (Cert.ReferenceIdeal.Read.val_main_v111_eq m' c).trans ((Cert.ReferenceIdeal.StepValue.az_new _ _ _ _ _ _ _ _ _).trans (by
        rw [Cert.ReferenceIdeal.StepValue.p_tot, a0, a1, a2, a3, a4, a5, a6, a8, a9]))
    · exact (Cert.ReferenceIdeal.Read.val_main_v59_eq _ _ _ _ _ _ _ _).trans ((Cert.ReferenceIdeal.StepValue.p_tot _ _ _ _ _ _ _ _).trans (by
        rw [a0, a1, a2, a3, a4, a5, a6, a8]))

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
